-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v70)) (v1 : (c : Dev Cert.KernelIdeal.nD) → Buf (Elt Ideal) ((c.tc : Thread Cert.KernelIdeal.nD Cert.KernelIdeal.τ).loc Cert.KernelIdeal.main_v71)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v70) = v0 c
          ∧ r.2.mem ((c.tc : Thread Cert.KernelIdeal.nD Cert.KernelIdeal.τ).loc Cert.KernelIdeal.main_v71) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v67) = v0 c
          ∧ r.2.mem ((c.tc : Thread Cert.ReferenceIdeal.nD Cert.ReferenceIdeal.τ).loc Cert.ReferenceIdeal.main_v84) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64 .f32) (main_arg6 : FVec F S128x64 .f32) (main_arg7 : FVec F S64 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S128x64 .f32 := Host.absf main_arg6
  let main_cst_8 : FVec F S_ .f32 := constant S_ .f32 0x7F800000#32
  let main_v25 : FVec F S128x64 .f32 := broadcastInDim S128x64 ![] bcast_S_S128x64 main_cst_8
  let main_v26 : IVec S128x64 1 := cmpf .olt main_v24 main_v25
  let main_c_9 : IVec S_ 1 := constantI S_ 1 1#1
  let main_v27 : IVec S_ 1 := (fun x v => Host.reduce IntOp.andi x v reducesTo_S128x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  main_v33

def fn {F : FTy → Type} [FloatOps F] (main_arg0 : FVec F S100000x128 .f32) (main_arg1 : IVec S2x1600000 32) (main_arg2 : FVec F S128x128 .f32) (main_arg3 : FVec F S128 .f32) (main_arg4 : FVec F S128x64 .f32) (main_arg5 : FVec F S64 .f32) (main_arg6 : FVec F S128x64 .f32) (main_arg7 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg4
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg5 main_arg6 main_arg7 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S5000x128 : Shape := ⟨2, ![5000, 128]⟩
abbrev S1700000x128 : Shape := ⟨2, ![1700000, 128]⟩
abbrev S1x128 : Shape := ⟨2, ![1, 128]⟩
abbrev S100000x64 : Shape := ⟨2, ![100000, 64]⟩

abbrev nBuf : Space → Nat
  | .hbm => 99
  | .vmem => 10
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S128x64, .f32⟩
  | .hbm, ⟨7, _⟩ => ⟨S64, .f32⟩
  | .hbm, ⟨8, _⟩ => ⟨S100000, .i32⟩
  | .hbm, ⟨9, _⟩ => ⟨S1x1600000, .i32⟩
  | .hbm, ⟨10, _⟩ => ⟨S1600000, .i32⟩
  | .hbm, ⟨11, _⟩ => ⟨S1700000, .i32⟩
  | .hbm, ⟨12, _⟩ => ⟨S1x1600000, .i32⟩
  | .hbm, ⟨13, _⟩ => ⟨S1600000, .i32⟩
  | .hbm, ⟨14, _⟩ => ⟨S1700000, .i32⟩
  | .hbm, ⟨15, _⟩ => ⟨S_, .f32⟩
  | .hbm, ⟨16, _⟩ => ⟨S1700000, .f32⟩
  | .hbm, ⟨17, _⟩ => ⟨S_, .f32⟩
  | .hbm, ⟨18, _⟩ => ⟨S100000, .f32⟩
  | .hbm, ⟨19, _⟩ => ⟨S1700000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .i1⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S100000, .f32⟩
  | .hbm, ⟨28, _⟩ => ⟨S_, .f32⟩
  | .hbm, ⟨29, _⟩ => ⟨S_, .f32⟩
  | .hbm, ⟨30, _⟩ => ⟨S100000, .f32⟩
  | .hbm, ⟨31, _⟩ => ⟨S100000, .f32⟩
  | .hbm, ⟨32, _⟩ => ⟨S_, .i32⟩
  | .hbm, ⟨33, _⟩ => ⟨S1700000, .i32⟩
  | .hbm, ⟨34, _⟩ => ⟨S1700000, .i1⟩
  | .hbm, ⟨35, _⟩ => ⟨S_, .i32⟩
  | .hbm, ⟨36, _⟩ => ⟨S1700000, .i32⟩
  | .hbm, ⟨37, _⟩ => ⟨S1700000, .i32⟩
  | .hbm, ⟨38, _⟩ => ⟨S1700000, .i32⟩
  | .hbm, ⟨39, _⟩ => ⟨S1700000x1, .i32⟩
  | .hbm, ⟨40, _⟩ => ⟨S1700000, .f32⟩
  | .hbm, ⟨41, _⟩ => ⟨S1700000, .f32⟩
  | .hbm, ⟨42, _⟩ => ⟨S_, .i32⟩
  | .hbm, ⟨43, _⟩ => ⟨S1700000, .i32⟩
  | .hbm, ⟨44, _⟩ => ⟨S1700000, .i1⟩
  | .hbm, ⟨45, _⟩ => ⟨S_, .i32⟩
  | .hbm, ⟨46, _⟩ => ⟨S1700000, .i32⟩
  | .hbm, ⟨47, _⟩ => ⟨S1700000, .i32⟩
  | .hbm, ⟨48, _⟩ => ⟨S1700000, .i32⟩
  | .hbm, ⟨49, _⟩ => ⟨S1700000x1, .i32⟩
  | .hbm, ⟨50, _⟩ => ⟨S1700000, .f32⟩
  | .hbm, ⟨51, _⟩ => ⟨S1700000, .f32⟩
  | .hbm, ⟨52, _⟩ => ⟨S100000x128, .f32⟩
  | .hbm, ⟨53, _⟩ => ⟨S_, .i32⟩
  | .hbm, ⟨54, _⟩ => ⟨S1700000, .i32⟩
  | .hbm, ⟨55, _⟩ => ⟨S1700000, .i1⟩
  | .hbm, ⟨56, _⟩ => ⟨S_, .i32⟩
  | .hbm, ⟨57, _⟩ => ⟨S1700000, .i32⟩
  | .hbm, ⟨58, _⟩ => ⟨S1700000, .i32⟩
  | .hbm, ⟨59, _⟩ => ⟨S1700000, .i32⟩
  | .hbm, ⟨60, _⟩ => ⟨S1700000x1, .i32⟩
  | .hbm, ⟨61, _⟩ => ⟨S1700000x128, .f32⟩
  | .hbm, ⟨62, _⟩ => ⟨S1700000x1, .f32⟩
  | .hbm, ⟨63, _⟩ => ⟨S1700000x128, .f32⟩
  | .hbm, ⟨64, _⟩ => ⟨S1700000x128, .f32⟩
  | .hbm, ⟨65, _⟩ => ⟨S_, .f32⟩
  | .hbm, ⟨66, _⟩ => ⟨S100000x128, .f32⟩
  | .hbm, ⟨67, _⟩ => ⟨S1700000x1, .i32⟩
  | .hbm, ⟨68, _⟩ => ⟨S100000x128, .f32⟩
  | .hbm, ⟨69, _⟩ => ⟨S1x128, .f32⟩
  | .hbm, ⟨70, _⟩ => ⟨S100000x128, .f32⟩
  | .hbm, ⟨71, _⟩ => ⟨S100000x128, .f32⟩
  | .hbm, ⟨72, _⟩ => ⟨S_, .f32⟩
  | .hbm, ⟨73, _⟩ => ⟨S100000x128, .f32⟩
  | .hbm, ⟨74, _⟩ => ⟨S100000x128, .f32⟩
  | .hbm, ⟨75, _⟩ => ⟨S128x128, .f32⟩
  | .hbm, ⟨76, _⟩ => ⟨S128, .f32⟩
  | .hbm, ⟨77, _⟩ => ⟨S100000x128, .f32⟩
  | .hbm, ⟨78, _⟩ => ⟨S_, .i32⟩
  | .hbm, ⟨79, _⟩ => ⟨S1700000, .i32⟩
  | .hbm, ⟨80, _⟩ => ⟨S1700000, .i1⟩
  | .hbm, ⟨81, _⟩ => ⟨S_, .i32⟩
  | .hbm, ⟨82, _⟩ => ⟨S1700000, .i32⟩
  | .hbm, ⟨83, _⟩ => ⟨S1700000, .i32⟩
  | .hbm, ⟨84, _⟩ => ⟨S1700000, .i32⟩
  | .hbm, ⟨85, _⟩ => ⟨S1700000x1, .i32⟩
  | .hbm, ⟨86, _⟩ => ⟨S1700000x128, .f32⟩
  | .hbm, ⟨87, _⟩ => ⟨S1700000x1, .f32⟩
  | .hbm, ⟨88, _⟩ => ⟨S1700000x128, .f32⟩
  | .hbm, ⟨89, _⟩ => ⟨S1700000x128, .f32⟩
  | .hbm, ⟨90, _⟩ => ⟨S_, .f32⟩
  | .hbm, ⟨91, _⟩ => ⟨S100000x128, .f32⟩
  | .hbm, ⟨92, _⟩ => ⟨S1700000x1, .i32⟩
  | .hbm, ⟨93, _⟩ => ⟨S100000x128, .f32⟩
  | .hbm, ⟨94, _⟩ => ⟨S1x128, .f32⟩
  | .hbm, ⟨95, _⟩ => ⟨S100000x128, .f32⟩
  | .hbm, ⟨96, _⟩ => ⟨S100000x128, .f32⟩
  | .hbm, ⟨97, _⟩ => ⟨S100000x64, .f32⟩
  | .hbm, ⟨98, _⟩ => ⟨S100000x64, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S128x128, .f32⟩
  | .local _ .vmem, ⟨8, _⟩ => ⟨S5000x128, .f32⟩
  | .local _ .vmem, ⟨9, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_3 : Ref sig .tc := ⟨.hbm, 28, rfl⟩
abbrev main_call0_v0 : Ref sig .tc := ⟨.hbm, 29, rfl⟩
abbrev main_call0_v1 : Ref sig .tc := ⟨.hbm, 30, rfl⟩
abbrev main_v16 : Ref sig .tc := ⟨.hbm, 31, rfl⟩
abbrev main_c : Ref sig .tc := ⟨.hbm, 32, rfl⟩
abbrev main_v17 : Ref sig .tc := ⟨.hbm, 33, rfl⟩
abbrev main_v18 : Ref sig .tc := ⟨.hbm, 34, rfl⟩
abbrev main_c_4 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_c_5 : Ref sig .tc := ⟨.hbm, 42, rfl⟩
abbrev main_v25 : Ref sig .tc := ⟨.hbm, 43, rfl⟩
abbrev main_v26 : Ref sig .tc := ⟨.hbm, 44, rfl⟩
abbrev main_c_6 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_c_7 : Ref sig .tc := ⟨.hbm, 53, rfl⟩
abbrev main_v34 : Ref sig .tc := ⟨.hbm, 54, rfl⟩
abbrev main_v35 : Ref sig .tc := ⟨.hbm, 55, rfl⟩
abbrev main_c_8 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_cst_9 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_call1_cst : Ref sig .tc := ⟨.hbm, 72, rfl⟩
abbrev main_call1_v0 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_c_10 : Ref sig .tc := ⟨.hbm, 78, rfl⟩
abbrev main_v54 : Ref sig .tc := ⟨.hbm, 79, rfl⟩
abbrev main_v55 : Ref sig .tc := ⟨.hbm, 80, rfl⟩
abbrev main_c_11 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_cst_12 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  concatenates_S128x64_S128x64_S128x128_d1 : Shape.Concatenates [S128x64, S128x64] S128x128 1
  concatenates_S64_S64_S128_d0 : Shape.Concatenates [S64, S64] S128 0
  shapeCasts_S5000x128_S5000x128 : S5000x128.ShapeCasts S5000x128
  shapeCasts_S128x128_S128x128 : S128x128.ShapeCasts S128x128
  slices_S100000x128_S100000x64_0_0 : S100000x128.Slices ![0, 0] S100000x64
  slices_S100000x128_S100000x64_0_64 : S100000x128.Slices ![0, 64] S100000x64
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S5000x128_S128x128_S5000x128_1_0_0_1_n_n_wf : DotDims.WF S5000x128 S128x128 S5000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S100000x128.size a
  hwx1_2 : ∀ i : grid1.Coords, EltTy.bits .f32 = 32 ∨ (Rect.block (s := S100000x128) S5000x128.size (cc1_transform_2 i) (hinb1_2 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v33) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v50) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v51) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v53) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩
abbrev S100000x64 : Shape := ⟨2, ![100000, 64]⟩
abbrev S1700000x64 : Shape := ⟨2, ![1700000, 64]⟩
abbrev S1x64 : Shape := ⟨2, ![1, 64]⟩

abbrev nBuf : Space → Nat
  | .hbm => 115
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S128x64, .f32⟩
  | .hbm, ⟨7, _⟩ => ⟨S64, .f32⟩
  | .hbm, ⟨8, _⟩ => ⟨S100000, .i32⟩
  | .hbm, ⟨9, _⟩ => ⟨S1x1600000, .i32⟩
  | .hbm, ⟨10, _⟩ => ⟨S1600000, .i32⟩
  | .hbm, ⟨11, _⟩ => ⟨S1700000, .i32⟩
  | .hbm, ⟨12, _⟩ => ⟨S1x1600000, .i32⟩
  | .hbm, ⟨13, _⟩ => ⟨S1600000, .i32⟩
  | .hbm, ⟨14, _⟩ => ⟨S1700000, .i32⟩
  | .hbm, ⟨15, _⟩ => ⟨S_, .f32⟩
  | .hbm, ⟨16, _⟩ => ⟨S1700000, .f32⟩
  | .hbm, ⟨17, _⟩ => ⟨S_, .f32⟩
  | .hbm, ⟨18, _⟩ => ⟨S100000, .f32⟩
  | .hbm, ⟨19, _⟩ => ⟨S1700000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .i1⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S100000, .f32⟩
  | .hbm, ⟨28, _⟩ => ⟨S_, .f32⟩
  | .hbm, ⟨29, _⟩ => ⟨S_, .f32⟩
  | .hbm, ⟨30, _⟩ => ⟨S100000, .f32⟩
  | .hbm, ⟨31, _⟩ => ⟨S100000, .f32⟩
  | .hbm, ⟨32, _⟩ => ⟨S_, .i32⟩
  | .hbm, ⟨33, _⟩ => ⟨S1700000, .i32⟩
  | .hbm, ⟨34, _⟩ => ⟨S1700000, .i1⟩
  | .hbm, ⟨35, _⟩ => ⟨S_, .i32⟩
  | .hbm, ⟨36, _⟩ => ⟨S1700000, .i32⟩
  | .hbm, ⟨37, _⟩ => ⟨S1700000, .i32⟩
  | .hbm, ⟨38, _⟩ => ⟨S1700000, .i32⟩
  | .hbm, ⟨39, _⟩ => ⟨S1700000x1, .i32⟩
  | .hbm, ⟨40, _⟩ => ⟨S1700000, .f32⟩
  | .hbm, ⟨41, _⟩ => ⟨S1700000, .f32⟩
  | .hbm, ⟨42, _⟩ => ⟨S_, .i32⟩
  | .hbm, ⟨43, _⟩ => ⟨S1700000, .i32⟩
  | .hbm, ⟨44, _⟩ => ⟨S1700000, .i1⟩
  | .hbm, ⟨45, _⟩ => ⟨S_, .i32⟩
  | .hbm, ⟨46, _⟩ => ⟨S1700000, .i32⟩
  | .hbm, ⟨47, _⟩ => ⟨S1700000, .i32⟩
  | .hbm, ⟨48, _⟩ => ⟨S1700000, .i32⟩
  | .hbm, ⟨49, _⟩ => ⟨S1700000x1, .i32⟩
  | .hbm, ⟨50, _⟩ => ⟨S1700000, .f32⟩
  | .hbm, ⟨51, _⟩ => ⟨S1700000, .f32⟩
  | .hbm, ⟨52, _⟩ => ⟨S100000x128, .f32⟩
  | .hbm, ⟨53, _⟩ => ⟨S_, .i32⟩
  | .hbm, ⟨54, _⟩ => ⟨S1700000, .i32⟩
  | .hbm, ⟨55, _⟩ => ⟨S1700000, .i1⟩
  | .hbm, ⟨56, _⟩ => ⟨S_, .i32⟩
  | .hbm, ⟨57, _⟩ => ⟨S1700000, .i32⟩
  | .hbm, ⟨58, _⟩ => ⟨S1700000, .i32⟩
  | .hbm, ⟨59, _⟩ => ⟨S1700000, .i32⟩
  | .hbm, ⟨60, _⟩ => ⟨S1700000x1, .i32⟩
  | .hbm, ⟨61, _⟩ => ⟨S1700000x128, .f32⟩
  | .hbm, ⟨62, _⟩ => ⟨S1700000x1, .f32⟩
  | .hbm, ⟨63, _⟩ => ⟨S1700000x128, .f32⟩
  | .hbm, ⟨64, _⟩ => ⟨S1700000x128, .f32⟩
  | .hbm, ⟨65, _⟩ => ⟨S_, .f32⟩
  | .hbm, ⟨66, _⟩ => ⟨S100000x128, .f32⟩
  | .hbm, ⟨67, _⟩ => ⟨S1700000x1, .i32⟩
  | .hbm, ⟨68, _⟩ => ⟨S100000x128, .f32⟩
  | .hbm, ⟨69, _⟩ => ⟨S1x128, .f32⟩
  | .hbm, ⟨70, _⟩ => ⟨S100000x128, .f32⟩
  | .hbm, ⟨71, _⟩ => ⟨S100000x128, .f32⟩
  | .hbm, ⟨72, _⟩ => ⟨S_, .f32⟩
  | .hbm, ⟨73, _⟩ => ⟨S100000x128, .f32⟩
  | .hbm, ⟨74, _⟩ => ⟨S100000x128, .f32⟩
  | .hbm, ⟨75, _⟩ => ⟨S100000x64, .f32⟩
  | .hbm, ⟨76, _⟩ => ⟨S_, .i32⟩
  | .hbm, ⟨77, _⟩ => ⟨S1700000, .i32⟩
  | .hbm, ⟨78, _⟩ => ⟨S1700000, .i1⟩
  | .hbm, ⟨79, _⟩ => ⟨S_, .i32⟩
  | .hbm, ⟨80, _⟩ => ⟨S1700000, .i32⟩
  | .hbm, ⟨81, _⟩ => ⟨S1700000, .i32⟩
  | .hbm, ⟨82, _⟩ => ⟨S1700000, .i32⟩
  | .hbm, ⟨83, _⟩ => ⟨S1700000x1, .i32⟩
  | .hbm, ⟨84, _⟩ => ⟨S1700000x64, .f32⟩
  | .hbm, ⟨85, _⟩ => ⟨S1700000x1, .f32⟩
  | .hbm, ⟨86, _⟩ => ⟨S1700000x64, .f32⟩
  | .hbm, ⟨87, _⟩ => ⟨S1700000x64, .f32⟩
  | .hbm, ⟨88, _⟩ => ⟨S_, .f32⟩
  | .hbm, ⟨89, _⟩ => ⟨S100000x64, .f32⟩
  | .hbm, ⟨90, _⟩ => ⟨S1700000x1, .i32⟩
  | .hbm, ⟨91, _⟩ => ⟨S100000x64, .f32⟩
  | .hbm, ⟨92, _⟩ => ⟨S1x64, .f32⟩
  | .hbm, ⟨93, _⟩ => ⟨S100000x64, .f32⟩
  | .hbm, ⟨94, _⟩ => ⟨S100000x64, .f32⟩
  | .hbm, ⟨95, _⟩ => ⟨S100000x64, .f32⟩
  | .hbm, ⟨96, _⟩ => ⟨S_, .i32⟩
  | .hbm, ⟨97, _⟩ => ⟨S1700000, .i32⟩
  | .hbm, ⟨98, _⟩ => ⟨S1700000, .i1⟩
  | .hbm, ⟨99, _⟩ => ⟨S_, .i32⟩
  | .hbm, ⟨100, _⟩ => ⟨S1700000, .i32⟩
  | .hbm, ⟨101, _⟩ => ⟨S1700000, .i32⟩
  | .hbm, ⟨102, _⟩ => ⟨S1700000, .i32⟩
  | .hbm, ⟨103, _⟩ => ⟨S1700000x1, .i32⟩
  | .hbm, ⟨104, _⟩ => ⟨S1700000x64, .f32⟩
  | .hbm, ⟨105, _⟩ => ⟨S1700000x1, .f32⟩
  | .hbm, ⟨106, _⟩ => ⟨S1700000x64, .f32⟩
  | .hbm, ⟨107, _⟩ => ⟨S1700000x64, .f32⟩
  | .hbm, ⟨108, _⟩ => ⟨S_, .f32⟩
  | .hbm, ⟨109, _⟩ => ⟨S100000x64, .f32⟩
  | .hbm, ⟨110, _⟩ => ⟨S1700000x1, .i32⟩
  | .hbm, ⟨111, _⟩ => ⟨S100000x64, .f32⟩
  | .hbm, ⟨112, _⟩ => ⟨S1x64, .f32⟩
  | .hbm, ⟨113, _⟩ => ⟨S100000x64, .f32⟩
  | .hbm, ⟨114, _⟩ => ⟨S100000x64, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_3 : Ref sig .tc := ⟨.hbm, 28, rfl⟩
abbrev main_call0_v0 : Ref sig .tc := ⟨.hbm, 29, rfl⟩
abbrev main_call0_v1 : Ref sig .tc := ⟨.hbm, 30, rfl⟩
abbrev main_v16 : Ref sig .tc := ⟨.hbm, 31, rfl⟩
abbrev main_c : Ref sig .tc := ⟨.hbm, 32, rfl⟩
abbrev main_v17 : Ref sig .tc := ⟨.hbm, 33, rfl⟩
abbrev main_v18 : Ref sig .tc := ⟨.hbm, 34, rfl⟩
abbrev main_c_4 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_c_5 : Ref sig .tc := ⟨.hbm, 42, rfl⟩
abbrev main_v25 : Ref sig .tc := ⟨.hbm, 43, rfl⟩
abbrev main_v26 : Ref sig .tc := ⟨.hbm, 44, rfl⟩
abbrev main_c_6 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_c_7 : Ref sig .tc := ⟨.hbm, 53, rfl⟩
abbrev main_v34 : Ref sig .tc := ⟨.hbm, 54, rfl⟩
abbrev main_v35 : Ref sig .tc := ⟨.hbm, 55, rfl⟩
abbrev main_c_8 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_cst_9 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_call1_cst : Ref sig .tc := ⟨.hbm, 72, rfl⟩
abbrev main_call1_v0 : Ref sig .tc := ⟨.hbm, 73, rfl⟩
abbrev main_v50 : Ref sig .tc := ⟨.hbm, 74, rfl⟩
abbrev main_v51 : Ref sig .tc := ⟨.hbm, 75, rfl⟩
abbrev main_c_10 : Ref sig .tc := ⟨.hbm, 76, rfl⟩
abbrev main_v52 : Ref sig .tc := ⟨.hbm, 77, rfl⟩
abbrev main_v53 : Ref sig .tc := ⟨.hbm, 78, rfl⟩
abbrev main_c_11 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_cst_12 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_c_13 : Ref sig .tc := ⟨.hbm, 96, rfl⟩
abbrev main_v69 : Ref sig .tc := ⟨.hbm, 97, rfl⟩
abbrev main_v70 : Ref sig .tc := ⟨.hbm, 98, rfl⟩
abbrev main_c_14 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_cst_15 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x128_S128x128_S100000x128_1_0_0_1_n_n_wf : DotDims.WF S100000x128 S128x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x64_S100000x64_1_0_0_1_n_n_wf : DotDims.WF S100000x128 S128x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf

class Facts : Prop extends Facts₀ where

variable [Facts]
-- ==== Proof.StagesEntry.lean ====
/-
  The idealized kernel program's buffers when its first kernel region is entered.

  Up to the first region the kernel program and the reference run the same host operations on the edge list alone:
  the source and target rows with the self loops appended, the degree of every node by a scatter-add of ones, its
  inverse square root where the degree is positive, and from these the weight of every edge. So each buffer the later
  stretches read holds the value the reference's stage of the same number computes from the edge list. The stretches
  are taken one at a time, each over the contents the one before leaves, of which only the buffers it reads matter.
-/
import proofs.«149171_j44341242364729_1_alg».proof.Proof.Gen.KernelIdeal.Frame
import proofs.«149171_j44341242364729_1_alg».proof.Proof.RefRead

set_option maxRecDepth 16384

noncomputable section

namespace Cert.KernelIdeal.Stages

open Cert.KernelIdeal Cert.KernelIdeal.Gen
open Idealize.ShloMosaic Idealize.ShloMosaic.TcCoe Idealize.ShloMosaic.StableHlo Idealize.SL.Sem
open Cert.ReferenceIdeal.ReadP

variable {F : FTy → Type} [FloatOps F]
variable (m : (ℓ : Loc nD τ sig) → Buf (Elt F) ℓ) (ρ : Dev nD → PrngReg)

/-! ## After the first stretch: rows, degrees, inverse square roots -/

/-- The source rows, self loops appended. -/
theorem W1_v3 (c : Dev nD) : W1 m ρ c (Proc.devRef .tc main_v3) = val_main_v3 (F := F) (m ((c : Thread nD τ).loc main_arg1)) := by
  dsimp only [W1, W0, hostOps0]; after_results; rfl
/-- The target rows, self loops appended. -/
theorem W1_v6 (c : Dev nD) : W1 m ρ c (Proc.devRef .tc main_v6) = val_main_v6 (F := F) (m ((c : Thread nD τ).loc main_arg1)) := by
  dsimp only [W1, W0, hostOps0]; after_results; rfl
/-- The edge weights before normalisation: all ones. -/
theorem W1_v7 (c : Dev nD) : W1 m ρ c (Proc.devRef .tc main_v7) = val_main_v7 (F := F) := by
  dsimp only [W1, W0, hostOps0]; after_results; rfl
/-- Where the degree is positive. -/
theorem W1_v12 (c : Dev nD) : W1 m ρ c (Proc.devRef .tc main_v12) = val_main_v12 (F := F) (m ((c : Thread nD τ).loc main_arg1)) := by
  dsimp only [W1, W0, hostOps0]; after_results; rfl
/-- The inverse square root of the degree, the degree kept away from zero. -/
theorem W1_v15 (c : Dev nD) : W1 m ρ c (Proc.devRef .tc main_v15) = val_main_v15 (F := F) (m ((c : Thread nD τ).loc main_arg1)) := by
  dsimp only [W1, W0, hostOps0]; after_results; rfl
/-- The zero the inverse square root is replaced by where the degree is not positive. -/
theorem W1_cst_3 (c : Dev nD) : W1 m ρ c (Proc.devRef .tc main_cst_3) = val_main_cst_3 (F := F) := by
  dsimp only [W1, W0, hostOps0]; after_results; rfl

/-! ## After the call that selects: the inverse square root, zero where the degree is not positive -/

set_option maxHeartbeats 4000000 in
/-- The selected inverse square root. -/
theorem W2_v16 (c : Dev nD) : W2 m ρ c (Proc.devRef .tc main_v16) = val_main_v16 (F := F) (m ((c : Thread nD τ).loc main_arg1)) := by
  have h0 := W1_v12 m ρ c; have h1 := W1_v15 m ρ c; have h2 := W1_cst_3 m ρ c
  dsimp only [W2, hostOps0_1]
  generalize W1 m ρ c = V at h0 h1 h2 ⊢
  after_results
  rw [h0, h1, h2]; rfl
/-- The call writes none of the source rows. -/
theorem W2_v3 (c : Dev nD) : W2 m ρ c (Proc.devRef .tc main_v3) = val_main_v3 (F := F) (m ((c : Thread nD τ).loc main_arg1)) := by
  have h0 := W1_v3 m ρ c
  dsimp only [W2, hostOps0_1]
  generalize W1 m ρ c = V at h0 ⊢
  after_results
  exact h0
/-- Nor the target rows. -/
theorem W2_v6 (c : Dev nD) : W2 m ρ c (Proc.devRef .tc main_v6) = val_main_v6 (F := F) (m ((c : Thread nD τ).loc main_arg1)) := by
  have h0 := W1_v6 m ρ c
  dsimp only [W2, hostOps0_1]
  generalize W1 m ρ c = V at h0 ⊢
  after_results
  exact h0
/-- Nor the ones. -/
theorem W2_v7 (c : Dev nD) : W2 m ρ c (Proc.devRef .tc main_v7) = val_main_v7 (F := F) := by
  have h0 := W1_v7 m ρ c
  dsimp only [W2, hostOps0_1]
  generalize W1 m ρ c = V at h0 ⊢
  after_results
  exact h0

/-! ## After the third stretch, when region 0 is entered: the weight of every edge -/

set_option maxHeartbeats 4000000 in
/-- The edge weights: the inverse square roots of the degrees of the edge's two ends, multiplied. -/
theorem W3_v32 (c : Dev nD) : W3 m ρ c (Proc.devRef .tc main_v32) = val_main_v32 (F := F) (m ((c : Thread nD τ).loc main_arg1)) := by
  have h0 := W2_v16 m ρ c; have h1 := W2_v3 m ρ c; have h2 := W2_v6 m ρ c; have h3 := W2_v7 m ρ c
  dsimp only [W3, hostOps0_2]
  generalize W2 m ρ c = V at h0 h1 h2 h3 ⊢
  after_results
  rw [h0, h1, h2, h3]; rfl
/-- The source rows are as before. -/
theorem W3_v3 (c : Dev nD) : W3 m ρ c (Proc.devRef .tc main_v3) = val_main_v3 (F := F) (m ((c : Thread nD τ).loc main_arg1)) := by
  have h0 := W2_v3 m ρ c
  dsimp only [W3, hostOps0_2]
  generalize W2 m ρ c = V at h0 ⊢
  after_results
  exact h0
/-- The target rows are as before. -/
theorem W3_v6 (c : Dev nD) : W3 m ρ c (Proc.devRef .tc main_v6) = val_main_v6 (F := F) (m ((c : Thread nD τ).loc main_arg1)) := by
  have h0 := W2_v6 m ρ c
  dsimp only [W3, hostOps0_2]
  generalize W2 m ρ c = V at h0 ⊢
  after_results
  exact h0

/-! ## The arguments are as launched: no host operation writes one -/

theorem W3_arg0 (c : Dev nD) : W3 m ρ c (Proc.devRef .tc main_arg0) = m ((c : Thread nD τ).loc main_arg0) := by
  dsimp only [W3, W2, W1, W0, hostOps0, hostOps0_1, hostOps0_2]; after_results
theorem W3_arg2 (c : Dev nD) : W3 m ρ c (Proc.devRef .tc main_arg2) = m ((c : Thread nD τ).loc main_arg2) := by
  dsimp only [W3, W2, W1, W0, hostOps0, hostOps0_1, hostOps0_2]; after_results
theorem W3_arg3 (c : Dev nD) : W3 m ρ c (Proc.devRef .tc main_arg3) = m ((c : Thread nD τ).loc main_arg3) := by
  dsimp only [W3, W2, W1, W0, hostOps0, hostOps0_1, hostOps0_2]; after_results
theorem W3_arg4 (c : Dev nD) : W3 m ρ c (Proc.devRef .tc main_arg4) = m ((c : Thread nD τ).loc main_arg4) := by
  dsimp only [W3, W2, W1, W0, hostOps0, hostOps0_1, hostOps0_2]; after_results
theorem W3_arg5 (c : Dev nD) : W3 m ρ c (Proc.devRef .tc main_arg5) = m ((c : Thread nD τ).loc main_arg5) := by
  dsimp only [W3, W2, W1, W0, hostOps0, hostOps0_1, hostOps0_2]; after_results
theorem W3_arg6 (c : Dev nD) : W3 m ρ c (Proc.devRef .tc main_arg6) = m ((c : Thread nD τ).loc main_arg6) := by
  dsimp only [W3, W2, W1, W0, hostOps0, hostOps0_1, hostOps0_2]; after_results
theorem W3_arg7 (c : Dev nD) : W3 m ρ c (Proc.devRef .tc main_arg7) = m ((c : Thread nD τ).loc main_arg7) := by
  dsimp only [W3, W2, W1, W0, hostOps0, hostOps0_1, hostOps0_2]; after_results

end Cert.KernelIdeal.Stages

end
-- ==== Proof.LibMatmulPlain.lean ====
/-
  A general lemma. The plain matrix product of an [M, K] array by a [K, N] array (the left operand contracted on its
  second axis, the right on its first, no batch axes), accumulated into the zero array and read at the exact
  instance, is at entry (p, q) the finite sum over the contraction coordinate k of left (p, k) · right (k, q).
  It holds for all sizes and both operands' formats.
-/
import Idealize.ShloMosaic.Lib.ValueIdx
import Idealize.ShloMosaic.PureOps.Ideal.Laws

namespace Idealize.ShloMosaic.MatmulPlain

open Idealize.ShloMosaic Idealize.ShloMosaic.ValueIdx

variable {M K N : ℕ}

/-- The left operand's row coordinate is the result's row coordinate. -/
theorem lhs_row (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The left operand's column coordinate is the contraction coordinate. -/
theorem lhs_col (i : (⟨2, ![M, N]⟩ : Shape).Idx) (q : (DotDims.plain M K N).contr.Idx) :
    ((DotDims.plain M K N).lhsIdx i q 1).val = (q ⟨0, Nat.one_pos⟩).val :=
  (DotDims.plain M K N).lhsIdx_val_of_single rfl i q

/-- The right operand's row coordinate is the contraction coordinate. -/
theorem rhs_row (i : (⟨2, ![M, N]⟩ : Shape).Idx) (q : (DotDims.plain M K N).contr.Idx) :
    ((DotDims.plain M K N).rhsIdx i q 0).val = (q ⟨0, Nat.one_pos⟩).val :=
  (DotDims.plain M K N).rhsIdx_val_of_single rfl i q

/-- The right operand's column coordinate is the result's column coordinate. -/
theorem rhs_col (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- Entry (p, q) of the plain product into a zero accumulator is ∑ k, left (p, k) · right (k, q). -/
theorem matmul_zero_apply {φ₁ φ₂ : FTy} (prec : Option ContractPrecision)
    (l : FVec Ideal ⟨2, ![M, K]⟩ φ₁) (r : FVec Ideal ⟨2, ![K, N]⟩ φ₂) (p : Fin M) (q : Fin N) :
    matmul (DotDims.plain M K N) prec l r (constant ⟨2, ![M, N]⟩ .f32 0x00000000#32) (ix2 p q)
      = ∑ k : Fin K, l (ix2 p k) * r (ix2 k q) := by
  show FloatOps.matmul (DotDims.plain M K N) prec l r (constant ⟨2, ![M, N]⟩ .f32 0x00000000#32) (ix2 p q) = _
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact lhs_row _ _
      | ⟨1, _⟩ => exact (lhs_col _ _).trans hk)
  have er : (DotDims.plain M K N).rhsIdx (ix2 p q) ((contrEquiv1 (DotDims.plain M K N) K rfl rfl).symm k) = ix2 k q :=
    funext fun a => Fin.ext (by
      match a with
      | ⟨0, _⟩ => exact (rhs_row _ _).trans hk
      | ⟨1, _⟩ => exact rhs_col _ _)
  rw [el, er]

end Idealize.ShloMosaic.MatmulPlain
-- ==== Proof.RegionProduct.lean ====
/-
  What each of the two kernel regions leaves in its output array.

  Both regions run the same body on a grid of 20 points: point `t` loads rows `5000 t … 5000 t + 4999` of a
  100000 x 128 array and a whole 128 x 128 matrix, multiplies them into a zero accumulator and stores the 5000 x 128
  product as block `t` of the output. Read over the extended reals the narrowing of the operands to bf16 is the
  identity, so entry `(p, q)` of a block is the sum over `k` of `x (5000 t + p, k) · w (k, q)`: the blocks are the
  restrictions of ONE array, the product of all the rows by the matrix, and since the 20 blocks tile the 100000 rows
  the output array ends holding that product.
-/
import proofs.«149171_j44341242364729_1_alg».proof.Proof.Gen.KernelIdeal.Frame
import proofs.«149171_j44341242364729_1_alg».proof.Proof.LibMatmulPlain
import Idealize.ShloMosaic.Lib.ValueIdx
import Idealize.ShloMosaic.Lib.Pipeline.Value

set_option maxRecDepth 16384

noncomputable section

namespace Cert.KernelIdeal.RegionProduct

open Cert.KernelIdeal Cert.KernelIdeal.Gen
open Idealize.ShloMosaic Idealize.ShloMosaic.TcCoe Idealize.ShloMosaic.ValueIdx Idealize.SL.Sem
open Idealize.ShloMosaic.Pipeline (Dat)

/-! ## The product of the rows by the matrix, entry by entry -/

/-- Entry `(p, q)` of the product of a 100000 x 128 array by a 128 x 128 matrix. -/
def entry (x : FVec Ideal S100000x128 .f32) (w : FVec Ideal S128x128 .f32) (p : Fin 100000) (q : Fin 128) : EReal :=
  ∑ k : Fin 128, x (ix2 p k) * w (ix2 k q)

/-- The whole product, as an array. -/
def rowsTimes (x : FVec Ideal S100000x128 .f32) (w : FVec Ideal S128x128 .f32) : FVec Ideal S100000x128 .f32 :=
  fun i => entry x w (i 0) (i 1)

theorem rowsTimes_apply (x : FVec Ideal S100000x128 .f32) (w : FVec Ideal S128x128 .f32) (p : Fin 100000) (q : Fin 128) :
    rowsTimes x w (ix2 p q) = entry x w p q := rfl

/-! ## One block's product -/

/-- The body's contraction is the plain one: rows by columns, no batch axis. -/
theorem dims_plain : dot_S5000x128_S128x128_S5000x128_1_0_0_1_n_n = DotDims.plain 5000 128 128 := rfl

/-- Region 0's stored value at `(p, q)`: the sum over `k` of the loaded block at `(p, k)` times the matrix at `(k, q)`. -/
theorem pay0_apply (xb : FVec Ideal S5000x128 .f32) (wb : FVec Ideal S128x128 .f32) (p : Fin 5000) (q : Fin 128) :
    k0_pay1 (F := Ideal) xb wb (ix2 p q) = ∑ k : Fin 128, xb (ix2 p k) * wb (ix2 k q) := by
  unfold k0_pay1
  exact MatmulPlain.matmul_zero_apply (M := 5000) (K := 128) (N := 128) none
    (truncf .bf16 xb bitsLt_bf16_f32) (truncf .bf16 wb bitsLt_bf16_f32) p q

/-- Region 1's stored value at `(p, q)`: the same sum; its body casts each loaded block to its own shape first, which
    changes nothing. -/
theorem pay1_apply (xb : FVec Ideal S5000x128 .f32) (wb : FVec Ideal S128x128 .f32) (p : Fin 5000) (q : Fin 128) :
    k1_pay1 (F := Ideal) xb wb (ix2 p q) = ∑ k : Fin 128, xb (ix2 p k) * wb (ix2 k q) := by
  unfold k1_pay1
  refine (MatmulPlain.matmul_zero_apply (M := 5000) (K := 128) (N := 128) none
    (truncf .bf16 (shapeCast S5000x128 xb shapeCasts_S5000x128_S5000x128) bitsLt_bf16_f32)
    (truncf .bf16 (shapeCast S128x128 wb shapeCasts_S128x128_S128x128) bitsLt_bf16_f32) p q).trans ?_
  refine Finset.sum_congr rfl fun k _ => ?_
  rw [truncf_apply, truncf_apply, shapeCast_self, shapeCast_self]

/-! ## Region 0: the rows of the first argument by the first weight matrix -/

section Region0

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the row window and the output window are at block `t` of the rows and block 0
    of the columns, the matrix window at block `(0, 0)`. -/
theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Point `t`'s stored value at `(p, q)` is entry `(5000 t + p, q)` of the whole product, when the loaded blocks are
    the rows from `5000 t` on and the whole matrix. -/
theorem point0 (X : FVec Ideal S100000x128 .f32) (W : FVec Ideal S128x128 .f32)
    (xb : FVec Ideal S5000x128 .f32) (wb : FVec Ideal S128x128 .f32) (b : Nat) (hb : b < 20)
    (hx : ∀ (p : Fin 5000) (k : Fin 128), xb (ix2 p k) = X (ix2 (⟨b * 5000 + p.val, by omega⟩ : Fin 100000) k))
    (hw : ∀ (k q : Fin 128), wb (ix2 k q) = W (ix2 k q)) (p : Fin 5000) (q : Fin 128) :
    k0_pay1 (F := Ideal) xb wb (ix2 p q) = entry X W (⟨b * 5000 + p.val, by omega⟩ : Fin 100000) q := by
  rw [pay0_apply]
  unfold entry
  exact Finset.sum_congr rfl fun k _ => by rw [hx, hw]

/-- WHAT POINT `t` WRITES BACK is block `t` of the product of the rows the region finds in the first window's array by
    the matrix it finds in the second's. -/
theorem flushed0 (c : Dev nD) (t : Fin cfg0.N) :
    (dat0 V c).flushed 2 t
      = ((cfg0.win 2).blk t).view.read (Elt Ideal) (rowsTimes (V c main_arg0) (V c main_arg2)) := by
  show (cfg0.win 2).cut (grid0.coords t) ((dat0 V c).after 2 t) = _
  rw [after0_2]
  unfold out0_2
  rw [View.canon_unit_zero hz]
  simp only [View.ld_unit_zero (S := S5000x128) hz, View.ld_unit_zero (S := S128x128) hz]
  obtain ⟨e0, e1, e2, e3, e4, e5⟩ := idx0 t
  have ht : t.val < 20 := t.isLt
  funext j
  obtain ⟨p, q, rfl⟩ : ∃ (p : Fin 5000) (q : Fin 128), j = ix2 p q := ⟨j 0, j 1, eq_ix2 j⟩
  have hx : ∀ (p' : Fin 5000) (k : Fin 128), ((cfg0.win 0).blk t).view.emb (ix2 p' k)
      = ix2 (⟨t.val * 5000 + p'.val, by omega⟩ : Fin 100000) k := by
    intro p' k; funext a; apply Fin.ext
    match a with
    | ⟨0, _⟩ => show win0_0.index t (0 : Fin 2) * 5000 + 1 * p'.val = t.val * 5000 + p'.val; omega
    | ⟨1, _⟩ => show win0_0.index t (1 : Fin 2) * 128 + 1 * k.val = k.val; omega
  have hw : ∀ (k q' : Fin 128), ((cfg0.win 1).blk t).view.emb (ix2 k q') = ix2 k q' := by
    intro k q'; funext a; apply Fin.ext
    match a with
    | ⟨0, _⟩ => show win0_1.index t (0 : Fin 2) * 128 + 1 * k.val = k.val; omega
    | ⟨1, _⟩ => show win0_1.index t (1 : Fin 2) * 128 + 1 * q'.val = q'.val; omega
  have ho : ((cfg0.win 2).blk t).view.emb (ix2 p q) = ix2 (⟨t.val * 5000 + p.val, by omega⟩ : Fin 100000) q := by
    funext a; apply Fin.ext
    match a with
    | ⟨0, _⟩ => show win0_2.index t (0 : Fin 2) * 5000 + 1 * p.val = t.val * 5000 + p.val; omega
    | ⟨1, _⟩ => show win0_2.index t (1 : Fin 2) * 128 + 1 * q.val = q.val; omega
  show k0_pay1 (F := Ideal) (iblk0 V c 0 t) (iblk0 V c 1 t) (ix2 p q)
    = rowsTimes (V c main_arg0) (V c main_arg2) (((cfg0.win 2).blk t).view.emb (ix2 p q))
  rw [ho, rowsTimes_apply]
  refine point0 (V c main_arg0) (V c main_arg2) (iblk0 V c 0 t) (iblk0 V c 1 t) t.val ht ?_ ?_ p q
  · intro p' k
    show V c main_arg0 (((cfg0.win 0).blk t).view.emb (ix2 p' k)) = _
    rw [hx]
  · intro k q'
    show V c main_arg2 (((cfg0.win 1).blk t).view.emb (ix2 k q')) = _
    rw [hw]

/-- An index of the output array is in point `t`'s block iff each coordinate is in the block's range on its axis. -/
theorem mem_blk0 (t : Fin cfg0.N) (i : S100000x128.Idx) :
    i ∈ ((cfg0.win 2).blk t).view.set ↔ ∀ a : Fin 2, win0_2.index t a * S5000x128.size a ≤ (i a).val
      ∧ (i a).val < win0_2.index t a * S5000x128.size a + S5000x128.size a := by
  show i ∈ ((View.whole main_v33).slice (win0_2.rect t)).set ↔ _
  rw [View.set_slice_whole, Rect.mem_set_unit]
  exact Iff.rfl

/-- Every index of the output array is in the block of the point its row falls in: the 20 blocks of 5000 rows tile the
    100000 rows. -/
theorem cover0 (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  refine ⟨⟨(i 0).val / 5000, by show (i 0).val / 5000 < 20; omega⟩, flush0_2 _, ?_⟩
  rw [mem_blk0]
  obtain ⟨e0, e1, e2, e3, e4, e5⟩ := idx0 ⟨(i 0).val / 5000, by show (i 0).val / 5000 < 20; omega⟩
  have e4' : win0_2.index ⟨(i 0).val / 5000, by show (i 0).val / 5000 < 20; omega⟩ (0 : Fin 2) = (i 0).val / 5000 := e4
  intro a
  match a with
  | ⟨0, _⟩ =>
    show win0_2.index _ (0 : Fin 2) * 5000 ≤ (i 0).val ∧ (i 0).val < win0_2.index _ (0 : Fin 2) * 5000 + 5000
    rw [e4']; omega
  | ⟨1, _⟩ =>
    show win0_2.index _ (1 : Fin 2) * 128 ≤ (i 1).val ∧ (i 1).val < win0_2.index _ (1 : Fin 2) * 128 + 128
    rw [e5]; omega

/-- THE OUTPUT ARRAY after region 0: the product of the rows by the matrix. -/
theorem final0 (c : Dev nD) :
    (dat0 V c).arrAt 2 cfg0.N = rowsTimes (V c main_arg0) (V c main_arg2) :=
  (dat0 V c).arrAt_eq_of_cover 2 (rowsTimes (V c main_arg0) (V c main_arg2)) (fun t _ => flushed0 V c t) cover0

end Region0

/-! ## Region 1: the rows of the hidden layer by the two second-layer weight matrices side by side -/

section Region1

variable (V : (c : Dev nD) → (b : Ref sig .tc) → Buf (Elt Ideal) ((c : Thread nD τ).loc b))

/-- The printed index maps over the grid: the row window and the output window are at block `t` of the rows and block 0
    of the columns, the matrix window at block `(0, 0)`. -/
theorem idx1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- Point `t`'s stored value at `(p, q)` is entry `(5000 t + p, q)` of the whole product, when the loaded blocks are
    the rows from `5000 t` on and the whole matrix. -/
theorem point1 (X : FVec Ideal S100000x128 .f32) (W : FVec Ideal S128x128 .f32)
    (xb : FVec Ideal S5000x128 .f32) (wb : FVec Ideal S128x128 .f32) (b : Nat) (hb : b < 20)
    (hx : ∀ (p : Fin 5000) (k : Fin 128), xb (ix2 p k) = X (ix2 (⟨b * 5000 + p.val, by omega⟩ : Fin 100000) k))
    (hw : ∀ (k q : Fin 128), wb (ix2 k q) = W (ix2 k q)) (p : Fin 5000) (q : Fin 128) :
    k1_pay1 (F := Ideal) xb wb (ix2 p q) = entry X W (⟨b * 5000 + p.val, by omega⟩ : Fin 100000) q := by
  rw [pay1_apply]
  unfold entry
  exact Finset.sum_congr rfl fun k _ => by rw [hx, hw]

/-- WHAT POINT `t` WRITES BACK is block `t` of the product of the rows the region finds in the first window's array by
    the matrix it finds in the second's (here the hidden layer and the two weight matrices joined by columns). -/
theorem flushed1 (c : Dev nD) (t : Fin cfg1.N) :
    (dat1 V c).flushed 2 t
      = ((cfg1.win 2).blk t).view.read (Elt Ideal) (rowsTimes (V c main_v50) (V c main_v51)) := by
  show (cfg1.win 2).cut (grid1.coords t) ((dat1 V c).after 2 t) = _
  rw [after1_2]
  unfold out1_2
  rw [View.canon_unit_zero hz]
  simp only [View.ld_unit_zero (S := S5000x128) hz, View.ld_unit_zero (S := S128x128) hz]
  obtain ⟨e0, e1, e2, e3, e4, e5⟩ := idx1 t
  have ht : t.val < 20 := t.isLt
  funext j
  obtain ⟨p, q, rfl⟩ : ∃ (p : Fin 5000) (q : Fin 128), j = ix2 p q := ⟨j 0, j 1, eq_ix2 j⟩
  have hx : ∀ (p' : Fin 5000) (k : Fin 128), ((cfg1.win 0).blk t).view.emb (ix2 p' k)
      = ix2 (⟨t.val * 5000 + p'.val, by omega⟩ : Fin 100000) k := by
    intro p' k; funext a; apply Fin.ext
    match a with
    | ⟨0, _⟩ => show win1_0.index t (0 : Fin 2) * 5000 + 1 * p'.val = t.val * 5000 + p'.val; omega
    | ⟨1, _⟩ => show win1_0.index t (1 : Fin 2) * 128 + 1 * k.val = k.val; omega
  have hw : ∀ (k q' : Fin 128), ((cfg1.win 1).blk t).view.emb (ix2 k q') = ix2 k q' := by
    intro k q'; funext a; apply Fin.ext
    match a with
    | ⟨0, _⟩ => show win1_1.index t (0 : Fin 2) * 128 + 1 * k.val = k.val; omega
    | ⟨1, _⟩ => show win1_1.index t (1 : Fin 2) * 128 + 1 * q'.val = q'.val; omega
  have ho : ((cfg1.win 2).blk t).view.emb (ix2 p q) = ix2 (⟨t.val * 5000 + p.val, by omega⟩ : Fin 100000) q := by
    funext a; apply Fin.ext
    match a with
    | ⟨0, _⟩ => show win1_2.index t (0 : Fin 2) * 5000 + 1 * p.val = t.val * 5000 + p.val; omega
    | ⟨1, _⟩ => show win1_2.index t (1 : Fin 2) * 128 + 1 * q.val = q.val; omega
  show k1_pay1 (F := Ideal) (iblk1 V c 0 t) (iblk1 V c 1 t) (ix2 p q)
    = rowsTimes (V c main_v50) (V c main_v51) (((cfg1.win 2).blk t).view.emb (ix2 p q))
  rw [ho, rowsTimes_apply]
  refine point1 (V c main_v50) (V c main_v51) (iblk1 V c 0 t) (iblk1 V c 1 t) t.val ht ?_ ?_ p q
  · intro p' k
    show V c main_v50 (((cfg1.win 0).blk t).view.emb (ix2 p' k)) = _
    rw [hx]
  · intro k q'
    show V c main_v51 (((cfg1.win 1).blk t).view.emb (ix2 k q')) = _
    rw [hw]

/-- An index of the output array is in point `t`'s block iff each coordinate is in the block's range on its axis. -/
theorem mem_blk1 (t : Fin cfg1.N) (i : S100000x128.Idx) :
    i ∈ ((cfg1.win 2).blk t).view.set ↔ ∀ a : Fin 2, win1_2.index t a * S5000x128.size a ≤ (i a).val
      ∧ (i a).val < win1_2.index t a * S5000x128.size a + S5000x128.size a := by
  show i ∈ ((View.whole main_v53).slice (win1_2.rect t)).set ↔ _
  rw [View.set_slice_whole, Rect.mem_set_unit]
  exact Iff.rfl

/-- Every index of the output array is in the block of the point its row falls in: the 20 blocks of 5000 rows tile the
    100000 rows. -/
theorem cover1 (i : S100000x128.Idx) :
    ∃ t : Fin cfg1.N, (cfg1.win 2).flush t = true ∧ i ∈ ((cfg1.win 2).blk t).view.set := by
  have hi0 : (i 0).val < 100000 := (i 0).isLt
  have hi1 : (i 1).val < 128 := (i 1).isLt
  refine ⟨⟨(i 0).val / 5000, by show (i 0).val / 5000 < 20; omega⟩, flush1_2 _, ?_⟩
  rw [mem_blk1]
  obtain ⟨e0, e1, e2, e3, e4, e5⟩ := idx1 ⟨(i 0).val / 5000, by show (i 0).val / 5000 < 20; omega⟩
  have e4' : win1_2.index ⟨(i 0).val / 5000, by show (i 0).val / 5000 < 20; omega⟩ (0 : Fin 2) = (i 0).val / 5000 := e4
  intro a
  match a with
  | ⟨0, _⟩ =>
    show win1_2.index _ (0 : Fin 2) * 5000 ≤ (i 0).val ∧ (i 0).val < win1_2.index _ (0 : Fin 2) * 5000 + 5000
    rw [e4']; omega
  | ⟨1, _⟩ =>
    show win1_2.index _ (1 : Fin 2) * 128 ≤ (i 1).val ∧ (i 1).val < win1_2.index _ (1 : Fin 2) * 128 + 128
    rw [e5]; omega

/-- THE OUTPUT ARRAY after region 1: the product of the rows by the matrix. -/
theorem final1 (c : Dev nD) :
    (dat1 V c).arrAt 2 cfg1.N = rowsTimes (V c main_v50) (V c main_v51) :=
  (dat1 V c).arrAt_eq_of_cover 2 (rowsTimes (V c main_v50) (V c main_v51)) (fun t _ => flushed1 V c t) cover1

end Region1

end Cert.KernelIdeal.RegionProduct

end
-- ==== Proof.StagesHidden.lean ====
/-
  The idealized kernel program's buffers from the first kernel region's exit to the second's entry.

  Region 0 leaves in its output array the product of the first argument's rows by the first weight matrix, which over
  the extended reals is the reference's `dot_general` of the same two arrays, entry by entry the same finite sum. The
  host operations that follow — gather the rows by source, scale by the edge weight, scatter-add by target, add the bias,
  clamp below at zero — are the reference's own, applied to that array: the hidden layer is the reference's hidden layer.
  Then the two second-layer weight matrices are joined by columns and the two biases end to end, for region 1.
-/
import proofs.«149171_j44341242364729_1_alg».proof.Proof.StagesEntry
import proofs.«149171_j44341242364729_1_alg».proof.Proof.RegionProduct

set_option maxRecDepth 16384

noncomputable section

namespace Cert.KernelIdeal.Stages

open Cert.KernelIdeal Cert.KernelIdeal.Gen
open Idealize.ShloMosaic Idealize.ShloMosaic.TcCoe Idealize.ShloMosaic.StableHlo Idealize.ShloMosaic.ValueIdx Idealize.SL.Sem
open Cert.ReferenceIdeal.ReadP

section AnyValues

variable {F : FTy → Type} [FloatOps F]
variable (m : (ℓ : Loc nD τ sig) → Buf (Elt F) ℓ) (ρ : Dev nD → PrngReg)

/-! ## At region 0's exit: everything but its output array is as at its entry -/

/-- The source rows. -/
theorem W4_v3 (c : Dev nD) : W4 m ρ c (Proc.devRef .tc main_v3) = val_main_v3 (F := F) (m ((c : Thread nD τ).loc main_arg1)) :=
  (W4_of_ne m ρ c main_v3 (by decide)).trans (W3_v3 m ρ c)
/-- The target rows. -/
theorem W4_v6 (c : Dev nD) : W4 m ρ c (Proc.devRef .tc main_v6) = val_main_v6 (F := F) (m ((c : Thread nD τ).loc main_arg1)) :=
  (W4_of_ne m ρ c main_v6 (by decide)).trans (W3_v6 m ρ c)
/-- The edge weights. -/
theorem W4_v32 (c : Dev nD) : W4 m ρ c (Proc.devRef .tc main_v32) = val_main_v32 (F := F) (m ((c : Thread nD τ).loc main_arg1)) :=
  (W4_of_ne m ρ c main_v32 (by decide)).trans (W3_v32 m ρ c)
theorem W4_arg3 (c : Dev nD) : W4 m ρ c (Proc.devRef .tc main_arg3) = m ((c : Thread nD τ).loc main_arg3) :=
  (W4_of_ne m ρ c main_arg3 (by decide)).trans (W3_arg3 m ρ c)
theorem W4_arg4 (c : Dev nD) : W4 m ρ c (Proc.devRef .tc main_arg4) = m ((c : Thread nD τ).loc main_arg4) :=
  (W4_of_ne m ρ c main_arg4 (by decide)).trans (W3_arg4 m ρ c)
theorem W4_arg5 (c : Dev nD) : W4 m ρ c (Proc.devRef .tc main_arg5) = m ((c : Thread nD τ).loc main_arg5) :=
  (W4_of_ne m ρ c main_arg5 (by decide)).trans (W3_arg5 m ρ c)
theorem W4_arg6 (c : Dev nD) : W4 m ρ c (Proc.devRef .tc main_arg6) = m ((c : Thread nD τ).loc main_arg6) :=
  (W4_of_ne m ρ c main_arg6 (by decide)).trans (W3_arg6 m ρ c)
theorem W4_arg7 (c : Dev nD) : W4 m ρ c (Proc.devRef .tc main_arg7) = m ((c : Thread nD τ).loc main_arg7) :=
  (W4_of_ne m ρ c main_arg7 (by decide)).trans (W3_arg7 m ρ c)

/-! ## The first layer, given what region 0 left in its output array -/

set_option maxHeartbeats 4000000 in
/-- Gathered, scaled, summed by target and biased: the reference's stage, when region 0's output is the reference's product. -/
theorem W5_v49_of (c : Dev nD)
    (hP : W4 m ρ c (Proc.devRef .tc main_v33) = val_main_v33 (F := F) (m ((c : Thread nD τ).loc main_arg0)) (m ((c : Thread nD τ).loc main_arg2))) : W5 m ρ c (Proc.devRef .tc main_v49) = val_main_v49 (F := F) (m ((c : Thread nD τ).loc main_arg0)) (m ((c : Thread nD τ).loc main_arg1)) (m ((c : Thread nD τ).loc main_arg2)) (m ((c : Thread nD τ).loc main_arg3)) := by
  have h0 := hP; have h1 := W4_v3 m ρ c; have h2 := W4_v6 m ρ c; have h3 := W4_v32 m ρ c; have h4 := W4_arg3 m ρ c
  dsimp only [W5, hostOps1]
  generalize W4 m ρ c = V at h0 h1 h2 h3 h4 ⊢
  after_results
  rw [h0, h1, h2, h3, h4]; rfl

set_option maxHeartbeats 4000000 in
/-- Clamped below at zero: the hidden layer. -/
theorem W6_v50_of (c : Dev nD)
    (hP : W4 m ρ c (Proc.devRef .tc main_v33) = val_main_v33 (F := F) (m ((c : Thread nD τ).loc main_arg0)) (m ((c : Thread nD τ).loc main_arg2))) : W6 m ρ c (Proc.devRef .tc main_v50) = val_main_v50 (F := F) (m ((c : Thread nD τ).loc main_arg0)) (m ((c : Thread nD τ).loc main_arg1)) (m ((c : Thread nD τ).loc main_arg2)) (m ((c : Thread nD τ).loc main_arg3)) := by
  have h0 := W5_v49_of m ρ c hP
  dsimp only [W6, hostOps1_1]
  generalize W5 m ρ c = V at h0 ⊢
  after_results
  rw [h0]; rfl

/-- The hidden layer is what region 1 finds in its first window's array. -/
theorem W7_v50_of (c : Dev nD)
    (hP : W4 m ρ c (Proc.devRef .tc main_v33) = val_main_v33 (F := F) (m ((c : Thread nD τ).loc main_arg0)) (m ((c : Thread nD τ).loc main_arg2))) : W7 m ρ c (Proc.devRef .tc main_v50) = val_main_v50 (F := F) (m ((c : Thread nD τ).loc main_arg0)) (m ((c : Thread nD τ).loc main_arg1)) (m ((c : Thread nD τ).loc main_arg2)) (m ((c : Thread nD τ).loc main_arg3)) := by
  have h0 := W6_v50_of m ρ c hP
  dsimp only [W7, hostOps1_2]
  generalize W6 m ρ c = V at h0 ⊢
  after_results
  exact h0

/-! ## The joined weights and biases, and what is carried to region 1's entry -/

theorem W6_arg4 (c : Dev nD) : W6 m ρ c (Proc.devRef .tc main_arg4) = m ((c : Thread nD τ).loc main_arg4) := by
  have h0 := W4_arg4 m ρ c
  dsimp only [W6, W5, hostOps1, hostOps1_1]
  generalize W4 m ρ c = V at h0 ⊢
  after_results
  exact h0
theorem W6_arg5 (c : Dev nD) : W6 m ρ c (Proc.devRef .tc main_arg5) = m ((c : Thread nD τ).loc main_arg5) := by
  have h0 := W4_arg5 m ρ c
  dsimp only [W6, W5, hostOps1, hostOps1_1]
  generalize W4 m ρ c = V at h0 ⊢
  after_results
  exact h0
theorem W6_arg6 (c : Dev nD) : W6 m ρ c (Proc.devRef .tc main_arg6) = m ((c : Thread nD τ).loc main_arg6) := by
  have h0 := W4_arg6 m ρ c
  dsimp only [W6, W5, hostOps1, hostOps1_1]
  generalize W4 m ρ c = V at h0 ⊢
  after_results
  exact h0
theorem W6_arg7 (c : Dev nD) : W6 m ρ c (Proc.devRef .tc main_arg7) = m ((c : Thread nD τ).loc main_arg7) := by
  have h0 := W4_arg7 m ρ c
  dsimp only [W6, W5, hostOps1, hostOps1_1]
  generalize W4 m ρ c = V at h0 ⊢
  after_results
  exact h0

/-- The two second-layer weight matrices side by side. -/
theorem W7_v51 (c : Dev nD) : W7 m ρ c (Proc.devRef .tc main_v51) = concatenate S128x128 1 [⟨S128x64, (m ((c : Thread nD τ).loc main_arg4))⟩, ⟨S128x64, (m ((c : Thread nD τ).loc main_arg6))⟩] concatenates_S128x64_S128x64_S128x128_d1 := by
  have h0 := W6_arg4 m ρ c; have h1 := W6_arg6 m ρ c
  dsimp only [W7, hostOps1_2]
  generalize W6 m ρ c = V at h0 h1 ⊢
  after_results
  rw [h0, h1]

/-- The two second-layer biases end to end. -/
theorem W7_v52 (c : Dev nD) : W7 m ρ c (Proc.devRef .tc main_v52) = concatenate S128 0 [⟨S64, (m ((c : Thread nD τ).loc main_arg5))⟩, ⟨S64, (m ((c : Thread nD τ).loc main_arg7))⟩] concatenates_S64_S64_S128_d0 := by
  have h0 := W6_arg5 m ρ c; have h1 := W6_arg7 m ρ c
  dsimp only [W7, hostOps1_2]
  generalize W6 m ρ c = V at h0 h1 ⊢
  after_results
  rw [h0, h1]

/-- The source rows. -/
theorem W7_v3 (c : Dev nD) : W7 m ρ c (Proc.devRef .tc main_v3) = val_main_v3 (F := F) (m ((c : Thread nD τ).loc main_arg1)) := by
  have h0 := W4_v3 m ρ c
  dsimp only [W7, W6, W5, hostOps1, hostOps1_1, hostOps1_2]
  generalize W4 m ρ c = V at h0 ⊢
  after_results
  exact h0
/-- The target rows. -/
theorem W7_v6 (c : Dev nD) : W7 m ρ c (Proc.devRef .tc main_v6) = val_main_v6 (F := F) (m ((c : Thread nD τ).loc main_arg1)) := by
  have h0 := W4_v6 m ρ c
  dsimp only [W7, W6, W5, hostOps1, hostOps1_1, hostOps1_2]
  generalize W4 m ρ c = V at h0 ⊢
  after_results
  exact h0
/-- The edge weights. -/
theorem W7_v32 (c : Dev nD) : W7 m ρ c (Proc.devRef .tc main_v32) = val_main_v32 (F := F) (m ((c : Thread nD τ).loc main_arg1)) := by
  have h0 := W4_v32 m ρ c
  dsimp only [W7, W6, W5, hostOps1, hostOps1_1, hostOps1_2]
  generalize W4 m ρ c = V at h0 ⊢
  after_results
  exact h0

end AnyValues

/-! ## Over the extended reals: region 0's output is the reference's product -/

section Exact

variable (m : (ℓ : Loc nD τ sig) → Buf (Elt Ideal) ℓ) (ρ : Dev nD → PrngReg)

/-- The product of the rows by the matrix, entry by entry the sum over the contracted coordinate, is the host's
    `dot_general` contracting the rows' columns against the matrix's rows. -/
theorem rowsTimes_eq_dot (x : FVec Ideal S100000x128 .f32) (w : FVec Ideal S128x128 .f32) :
    RegionProduct.rowsTimes x w = val_main_v33 (F := Ideal) x w := by
  funext i
  obtain ⟨p, q, rfl⟩ : ∃ (p : Fin 100000) (q : Fin 128), i = ix2 p q := ⟨i 0, i 1, eq_ix2 i⟩
  rw [RegionProduct.rowsTimes_apply, val_main_v33_apply]
  unfold RegionProduct.entry
  refine Finset.sum_congr rfl fun k _ => ?_
  have el : lidx_main_v33 (ix2 p q) k = ix2 p k :=
    funext fun a => Fin.ext (by match a with | ⟨0, _⟩ => rfl | ⟨1, _⟩ => rfl)
  have er : ridx_main_v33 (ix2 p q) k = ix2 k q :=
    funext fun a => Fin.ext (by match a with | ⟨0, _⟩ => rfl | ⟨1, _⟩ => rfl)
  rw [el, er]

/-- Region 0's output array holds the reference's first product. -/
theorem W4_v33 (c : Dev nD) :
    W4 m ρ c (Proc.devRef .tc main_v33) = val_main_v33 (F := Ideal) (m ((c : Thread nD τ).loc main_arg0)) (m ((c : Thread nD τ).loc main_arg2)) := by
  refine (W4_arr m ρ c 2).trans ((RegionProduct.final0 (V3 m ρ) c).trans ?_)
  rw [show V3 m ρ c main_arg0 = m ((c : Thread nD τ).loc main_arg0) from W3_arg0 m ρ c,
    show V3 m ρ c main_arg2 = m ((c : Thread nD τ).loc main_arg2) from W3_arg2 m ρ c]
  exact rowsTimes_eq_dot _ _

/-- The hidden layer at region 1's entry is the reference's hidden layer. -/
theorem W7_v50 (c : Dev nD) :
    W7 m ρ c (Proc.devRef .tc main_v50) = val_main_v50 (F := Ideal) (m ((c : Thread nD τ).loc main_arg0)) (m ((c : Thread nD τ).loc main_arg1)) (m ((c : Thread nD τ).loc main_arg2)) (m ((c : Thread nD τ).loc main_arg3)) :=
  W7_v50_of m ρ c (W4_v33 m ρ c)

end Exact

end Cert.KernelIdeal.Stages

end
-- ==== Proof.StagesOutput.lean ====
/-
  The idealized kernel program's results.

  Region 1 leaves in its output array the product of the hidden layer's rows by the two second-layer weight matrices
  joined by columns. The last host stretch gathers that array's rows by source, scales them by the edge weight,
  scatter-adds them by target into zeros, adds the two biases joined end to end, and returns the left 64 columns and the
  right 64 columns of the result: two column slices of ONE array over 128 columns, named `second` here.
-/
import proofs.«149171_j44341242364729_1_alg».proof.Proof.StagesHidden

set_option maxRecDepth 16384

noncomputable section

namespace Cert.KernelIdeal.Stages

open Cert.KernelIdeal Cert.KernelIdeal.Gen
open Idealize.ShloMosaic Idealize.ShloMosaic.TcCoe Idealize.ShloMosaic.StableHlo Idealize.ShloMosaic.ValueIdx Idealize.SL.Sem
open Cert.ReferenceIdeal.ReadP

section AnyValues

variable {F : FTy → Type} [FloatOps F]

/-- The second layer over all 128 columns, from the array `P2` that region 1 leaves, the edge list and the joined bias:
    rows of `P2` gathered by source, scaled by the edge weight, summed by target from zero, the bias added. The row
    numbers and the edge weights are the reference's own stages of the edge list. -/
def second (P2 : (⟨S100000x128, .f32⟩ : BufTy).Contents (Elt F)) (x1 : (⟨S2x1600000, .i32⟩ : BufTy).Contents (Elt F))
    (b : (⟨S128, .f32⟩ : BufTy).Contents (Elt F)) : (⟨S100000x128, .f32⟩ : BufTy).Contents (Elt F) :=
  addf (Host.scatterAdd scatter_S100000x128_S1700000x1_S1700000x128_1_0_0_1
      (broadcastInDim S100000x128 ![] bcast_S_S100000x128 (constant (F := F) S_ .f32 0x00000000#32))
      (val_main_v63 (F := F) x1)
      (mulf (Host.gather gather_S100000x128_S1700000x1_S1700000x128_1_0_n_n_0_1_1128 P2 (val_main_v57 (F := F) x1))
        (broadcastInDim S1700000x128 ![0, 1] bcast_S1700000x1_S1700000x128_0_1 (val_main_v59 (F := F) x1))))
    (broadcastInDim S100000x128 ![0, 1] bcast_S1x128_S100000x128_0_1 (broadcastInDim S1x128 ![1] bcast_S128_S1x128_1 b))

variable (m : (ℓ : Loc nD τ sig) → Buf (Elt F) ℓ) (ρ : Dev nD → PrngReg)

/-! ## At region 1's exit: everything but its output array is as at its entry -/

/-- The source rows. -/
theorem W8_v3 (c : Dev nD) : W8 m ρ c (Proc.devRef .tc main_v3) = val_main_v3 (F := F) (m ((c : Thread nD τ).loc main_arg1)) :=
  (W8_of_ne m ρ c main_v3 (by decide)).trans (W7_v3 m ρ c)
/-- The target rows. -/
theorem W8_v6 (c : Dev nD) : W8 m ρ c (Proc.devRef .tc main_v6) = val_main_v6 (F := F) (m ((c : Thread nD τ).loc main_arg1)) :=
  (W8_of_ne m ρ c main_v6 (by decide)).trans (W7_v6 m ρ c)
/-- The edge weights. -/
theorem W8_v32 (c : Dev nD) : W8 m ρ c (Proc.devRef .tc main_v32) = val_main_v32 (F := F) (m ((c : Thread nD τ).loc main_arg1)) :=
  (W8_of_ne m ρ c main_v32 (by decide)).trans (W7_v32 m ρ c)
/-- The joined biases. -/
theorem W8_v52 (c : Dev nD) : W8 m ρ c (Proc.devRef .tc main_v52) = concatenate S128 0 [⟨S64, (m ((c : Thread nD τ).loc main_arg5))⟩, ⟨S64, (m ((c : Thread nD τ).loc main_arg7))⟩] concatenates_S64_S64_S128_d0 :=
  (W8_of_ne m ρ c main_v52 (by decide)).trans (W7_v52 m ρ c)

/-! ## The two results, given what region 1 left in its output array -/

set_option maxHeartbeats 4000000 in
/-- The first result: the left 64 columns of the second layer. -/
theorem W9_v70_of (c : Dev nD) (P2 : (⟨S100000x128, .f32⟩ : BufTy).Contents (Elt F))
    (hP2 : W8 m ρ c (Proc.devRef .tc main_v53) = P2) : W9 m ρ c (Proc.devRef .tc main_v70) = extractStridedSlice S100000x64 ![0, 0] (second (F := F) P2 (m ((c : Thread nD τ).loc main_arg1)) (concatenate S128 0 [⟨S64, (m ((c : Thread nD τ).loc main_arg5))⟩, ⟨S64, (m ((c : Thread nD τ).loc main_arg7))⟩] concatenates_S64_S64_S128_d0)) slices_S100000x128_S100000x64_0_0 := by
  have h0 := hP2; have h1 := W8_v3 m ρ c; have h2 := W8_v6 m ρ c; have h3 := W8_v32 m ρ c; have h4 := W8_v52 m ρ c
  dsimp only [W9, hostOps2]
  generalize W8 m ρ c = V at h0 h1 h2 h3 h4 ⊢
  after_results
  rw [h0, h1, h2, h3, h4]; rfl

set_option maxHeartbeats 4000000 in
/-- The second result: the right 64 columns of the second layer. -/
theorem W9_v71_of (c : Dev nD) (P2 : (⟨S100000x128, .f32⟩ : BufTy).Contents (Elt F))
    (hP2 : W8 m ρ c (Proc.devRef .tc main_v53) = P2) : W9 m ρ c (Proc.devRef .tc main_v71) = extractStridedSlice S100000x64 ![0, 64] (second (F := F) P2 (m ((c : Thread nD τ).loc main_arg1)) (concatenate S128 0 [⟨S64, (m ((c : Thread nD τ).loc main_arg5))⟩, ⟨S64, (m ((c : Thread nD τ).loc main_arg7))⟩] concatenates_S64_S64_S128_d0)) slices_S100000x128_S100000x64_0_64 := by
  have h0 := hP2; have h1 := W8_v3 m ρ c; have h2 := W8_v6 m ρ c; have h3 := W8_v32 m ρ c; have h4 := W8_v52 m ρ c
  dsimp only [W9, hostOps2]
  generalize W8 m ρ c = V at h0 h1 h2 h3 h4 ⊢
  after_results
  rw [h0, h1, h2, h3, h4]; rfl

end AnyValues

/-! ## Over the extended reals: region 1's output is the hidden layer times the joined weights -/

section Exact

variable (m : (ℓ : Loc nD τ sig) → Buf (Elt Ideal) ℓ) (ρ : Dev nD → PrngReg)

/-- The joined weight matrix as a function of the two arguments it is made of. -/
abbrev joinedWeights (x4 x6 : (⟨S128x64, .f32⟩ : BufTy).Contents (Elt Ideal)) : (⟨S128x128, .f32⟩ : BufTy).Contents (Elt Ideal) :=
  concatenate S128x128 1 [⟨S128x64, x4⟩, ⟨S128x64, x6⟩] concatenates_S128x64_S128x64_S128x128_d1

/-- Region 1's output array: the reference's hidden layer times the joined weights. -/
theorem W8_v53 (c : Dev nD) : W8 m ρ c (Proc.devRef .tc main_v53)
    = RegionProduct.rowsTimes (val_main_v50 (F := Ideal) (m ((c : Thread nD τ).loc main_arg0)) (m ((c : Thread nD τ).loc main_arg1)) (m ((c : Thread nD τ).loc main_arg2)) (m ((c : Thread nD τ).loc main_arg3))) (joinedWeights (m ((c : Thread nD τ).loc main_arg4)) (m ((c : Thread nD τ).loc main_arg6))) := by
  refine (W8_arr m ρ c 2).trans ((RegionProduct.final1 (V7 m ρ) c).trans ?_)
  rw [show V7 m ρ c main_v50 = val_main_v50 (F := Ideal) (m ((c : Thread nD τ).loc main_arg0)) (m ((c : Thread nD τ).loc main_arg1)) (m ((c : Thread nD τ).loc main_arg2)) (m ((c : Thread nD τ).loc main_arg3)) from W7_v50 m ρ c,
    show V7 m ρ c main_v51 = joinedWeights (m ((c : Thread nD τ).loc main_arg4)) (m ((c : Thread nD τ).loc main_arg6)) from W7_v51 m ρ c]

end Exact

end Cert.KernelIdeal.Stages

end
-- ==== Proof.LibRowIndex.lean ====
/-
  Reading a row gather and a row scatter-add at an index.

  `x[idx]` over the rows of a matrix `x : [N, C]` at a column of row numbers `idx : [n, 1]` is the gather whose
  result row `i` is row `idx[i]` of `x`, the number read signed and clamped into `[0, N - 1]`.
  `segment_sum` of the rows of `upd : [n, C]` by the row numbers `idx : [n, 1]` into `x : [R, C]` is the
  scatter with an add body: at the ideal instance element `(r, c)` of the result is `x (r, c)` plus the sum over
  the update rows `i` whose number, read signed and NOT clamped, is `r`, of `upd (i, c)`; a row whose number is
  outside `[0, R)` contributes nowhere.
-/
import Idealize.ShloMosaic.PureOps.Ideal
import Idealize.ShloMosaic.Lib.ValueIdx

noncomputable section

namespace Idealize.ShloMosaic.RowIndex

open Idealize.ShloMosaic Idealize.ShloMosaic.ValueIdx

/-- The dimension numbers of a gather of whole rows: operand `[N, C]`, row numbers `[n, 1]`, result `[n, C]`. -/
abbrev rowGatherDims (N C n : Nat)
    (wf : GatherDims.WF ⟨2, ![N, C]⟩ ⟨2, ![n, 1]⟩ ⟨2, ![n, C]⟩ [1] [0] [] [0] [] 1 ![1, C]) :
    GatherDims ⟨2, ![N, C]⟩ ⟨2, ![n, 1]⟩ ⟨2, ![n, C]⟩ where
  offsetDims := [1]
  collapsedSliceDims := [0]
  operandBatchingDims := []
  startIndicesBatchingDims := []
  startIndexMap := [0]
  indexVectorDim := 1
  sliceSizes := ![1, C]
  wf := wf

/-- Result element `(i, j)` of a row gather is the operand at row `idx[i, 0]` (signed, clamped), column `j`. -/
theorem gather_rows_apply {α : Type} {N C n w : Nat} (hN : 0 < N)
    (wf : GatherDims.WF ⟨2, ![N, C]⟩ ⟨2, ![n, 1]⟩ ⟨2, ![n, C]⟩ [1] [0] [] [0] [] 1 ![1, C])
    (x : (⟨2, ![N, C]⟩ : Shape).Idx → α) (idx : IVec ⟨2, ![n, 1]⟩ w) (i : Fin n) (j : Fin C) :
    Host.gather (rowGatherDims N C n wf) x idx (ix2 i j)
      = x (ix2 (⟨min (idx (ix2 i (0 : Fin 1))).toInt.toNat (N - 1), by omega⟩ : Fin N) j) := by
  unfold Host.gather
  congr 1
  funext a
  refine Fin.ext ?_
  match a with
  | ⟨0, _⟩ =>
    -- the row axis is collapsed and named by the start index map: the clamped row number, no batch or offset part
    show (rowGatherDims N C n wf).start (ix2 i j) idx 0 + (rowGatherDims N C n wf).batchCoord (ix2 i j) 0
        + (rowGatherDims N C n wf).offCoord (ix2 i j) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N C n wf).startIndexMap from List.mem_singleton.mpr rfl)]
    have hsi : (rowGatherDims N C n wf).siIdx (ix2 i j) ⟨List.idxOf (0 : Fin 2) (rowGatherDims N C n wf).startIndexMap,
        List.idxOf_lt_length_iff.2 (List.mem_singleton.mpr rfl)⟩ = ix2 i (0 : Fin 1) := by
      funext b; refine Fin.ext ?_
      match b with
      | ⟨0, _⟩ => rfl
      | ⟨1, _⟩ => rfl
    rw [hsi]
    rfl
  | ⟨1, _⟩ =>
    -- the column axis is the one offset axis: the slice starts at 0 and the offset is the result's column
    show (rowGatherDims N C n wf).start (ix2 i j) idx 1 + (rowGatherDims N C n wf).batchCoord (ix2 i j) 1
        + (rowGatherDims N C n wf).offCoord (ix2 i j) 1 = j.val
    rw [GatherDims.batchCoord_eq_zero _ _ _ List.not_mem_nil]
    have hs : (rowGatherDims N C n wf).start (ix2 i j) idx 1 = 0 := by
      unfold GatherDims.start
      rw [dif_neg (show (1 : Fin 2) ∉ ([0] : List (Fin 2)) by decide)]
    have ho : (rowGatherDims N C n wf).offCoord (ix2 i j) 1 = j.val := by
      unfold GatherDims.offCoord
      rw [dif_pos ((GatherDims.mem_sKept _ _).2 ⟨show (1 : Fin 2) ∉ ([0] : List (Fin 2)) by decide, List.not_mem_nil⟩)]
      rfl
    rw [hs, ho]; omega

/-- The dimension numbers of a scatter of whole rows: operand `[R, C]`, row numbers `[n, 1]`, updates `[n, C]`. -/
abbrev rowScatterDims (R C n : Nat)
    (wf : ScatterDims.WF ⟨2, ![R, C]⟩ ⟨2, ![n, 1]⟩ ⟨2, ![n, C]⟩ [1] [0] [0] 1) :
    ScatterDims ⟨2, ![R, C]⟩ ⟨2, ![n, 1]⟩ ⟨2, ![n, C]⟩ where
  updateWindowDims := [1]
  insertedWindowDims := [0]
  scatterDimsToOperandDims := [0]
  indexVectorDim := 1
  wf := wf

/-- On the row axis the window of update element `(i, c')` starts at row `i`'s number, read signed. -/
theorem start_rows_zero {R C n w : Nat}
    (wf : ScatterDims.WF ⟨2, ![R, C]⟩ ⟨2, ![n, 1]⟩ ⟨2, ![n, C]⟩ [1] [0] [0] 1)
    (idx : IVec ⟨2, ![n, 1]⟩ w) (i : Fin n) (c' : Fin C) :
    (rowScatterDims R C n wf).start (ix2 i c') idx 0 = (idx (ix2 i (0 : Fin 1))).toInt := by
  unfold ScatterDims.start
  rw [dif_pos (show (0 : Fin 2) ∈ (rowScatterDims R C n wf).scatterDimsToOperandDims from List.mem_singleton.mpr rfl)]
  have hsi : (rowScatterDims R C n wf).siIdx (ix2 i c')
      ⟨List.idxOf (0 : Fin 2) (rowScatterDims R C n wf).scatterDimsToOperandDims,
        List.idxOf_lt_length_iff.2 (List.mem_singleton.mpr rfl)⟩ = ix2 i (0 : Fin 1) := by
    funext b; refine Fin.ext ?_
    match b with
    | ⟨0, _⟩ => rfl
    | ⟨1, _⟩ => rfl
  rw [hsi]

/-- On the column axis, which the scatter indices do not name, the window starts at `0`. -/
theorem start_rows_one {R C n w : Nat}
    (wf : ScatterDims.WF ⟨2, ![R, C]⟩ ⟨2, ![n, 1]⟩ ⟨2, ![n, C]⟩ [1] [0] [0] 1)
    (idx : IVec ⟨2, ![n, 1]⟩ w) (i : Fin n) (c' : Fin C) :
    (rowScatterDims R C n wf).start (ix2 i c') idx 1 = 0 := by
  unfold ScatterDims.start
  rw [dif_neg (show (1 : Fin 2) ∉ ([0] : List (Fin 2)) by decide)]

/-- The row axis is inserted: the window coordinate there is `0`. -/
theorem window_rows_zero {R C n : Nat}
    (wf : ScatterDims.WF ⟨2, ![R, C]⟩ ⟨2, ![n, 1]⟩ ⟨2, ![n, C]⟩ [1] [0] [0] 1)
    (i : Fin n) (c' : Fin C) :
    (rowScatterDims R C n wf).window (ix2 i c') 0 = 0 := by
  unfold ScatterDims.window
  have h : (0 : Fin 2) ∉ (rowScatterDims R C n wf).sKept := by
    show (0 : Fin 2) ∉ (List.finRange 2).filter (· ∉ ([0] : List (Fin 2)))
    decide
  rw [dif_neg h]

/-- The column axis is the one window axis: the window coordinate there is the update's column. -/
theorem window_rows_one {R C n : Nat}
    (wf : ScatterDims.WF ⟨2, ![R, C]⟩ ⟨2, ![n, 1]⟩ ⟨2, ![n, C]⟩ [1] [0] [0] 1)
    (i : Fin n) (c' : Fin C) :
    (rowScatterDims R C n wf).window (ix2 i c') 1 = c'.val := by
  unfold ScatterDims.window
  have h : (1 : Fin 2) ∈ (rowScatterDims R C n wf).sKept := by
    show (1 : Fin 2) ∈ (List.finRange 2).filter (· ∉ ([0] : List (Fin 2)))
    decide
  rw [dif_pos h]
  rfl

/-- Where update element `(i, c')` of a row scatter lands: at `(r, c)` exactly when row `i`'s number is `r` and
    `c' = c`. -/
theorem resultIdx_rows_iff {R C n w : Nat}
    (wf : ScatterDims.WF ⟨2, ![R, C]⟩ ⟨2, ![n, 1]⟩ ⟨2, ![n, C]⟩ [1] [0] [0] 1)
    (idx : IVec ⟨2, ![n, 1]⟩ w) (i : Fin n) (c' : Fin C) (r : Fin R) (c : Fin C) :
    (rowScatterDims R C n wf).resultIdx? (ix2 i c') idx = some (ix2 r c)
      ↔ (idx (ix2 i (0 : Fin 1))).toInt = (r.val : Int) ∧ c' = c := by
  have hs0 := start_rows_zero wf idx i c'
  have hs1 := start_rows_one wf idx i c'
  have hw0 := window_rows_zero wf i c'
  have hw1 := window_rows_one wf i c'
  have hr := r.isLt
  have hc := c.isLt
  have hc' := c'.isLt
  unfold ScatterDims.resultIdx?
  by_cases h : ∀ a : Fin 2, 0 ≤ (rowScatterDims R C n wf).start (ix2 i c') idx a + (rowScatterDims R C n wf).window (ix2 i c') a
      ∧ (rowScatterDims R C n wf).start (ix2 i c') idx a + (rowScatterDims R C n wf).window (ix2 i c') a
          < ((⟨2, ![R, C]⟩ : Shape).size a : Int)
  · -- the window is inside the operand: the landing index is (row number + 0, 0 + c')
    rw [dif_pos h, Option.some.injEq]
    have h0 := h 0
    have h1 := h 1
    rw [hs0, hw0] at h0
    rw [hs1, hw1] at h1
    constructor
    · intro hEq
      have e0 : ((rowScatterDims R C n wf).start (ix2 i c') idx 0 + (rowScatterDims R C n wf).window (ix2 i c') 0).toNat = r.val :=
        congrArg Fin.val (congrFun hEq 0)
      have e1 : ((rowScatterDims R C n wf).start (ix2 i c') idx 1 + (rowScatterDims R C n wf).window (ix2 i c') 1).toNat = c.val :=
        congrArg Fin.val (congrFun hEq 1)
      rw [hs0, hw0] at e0
      rw [hs1, hw1] at e1
      exact ⟨by omega, Fin.ext (by omega)⟩
    · rintro ⟨hrow, hcol⟩
      funext a
      refine Fin.ext ?_
      match a with
      | ⟨0, _⟩ =>
        show ((rowScatterDims R C n wf).start (ix2 i c') idx 0 + (rowScatterDims R C n wf).window (ix2 i c') 0).toNat = r.val
        rw [hs0, hw0]; omega
      | ⟨1, _⟩ =>
        show ((rowScatterDims R C n wf).start (ix2 i c') idx 1 + (rowScatterDims R C n wf).window (ix2 i c') 1).toNat = c.val
        rw [hs1, hw1, hcol]; omega
  · -- the window leaves the operand: the update is dropped, and a row number equal to some `r < R` would be inside
    rw [dif_neg h]
    constructor
    · intro hEq; cases hEq
    · rintro ⟨hrow, hcol⟩
      exfalso; apply h
      intro a
      match a with
      | ⟨0, _⟩ =>
        show 0 ≤ (rowScatterDims R C n wf).start (ix2 i c') idx 0 + (rowScatterDims R C n wf).window (ix2 i c') 0
          ∧ (rowScatterDims R C n wf).start (ix2 i c') idx 0 + (rowScatterDims R C n wf).window (ix2 i c') 0 < (R : Int)
        rw [hs0, hw0]; omega
      | ⟨1, _⟩ =>
        show 0 ≤ (rowScatterDims R C n wf).start (ix2 i c') idx 1 + (rowScatterDims R C n wf).window (ix2 i c') 1
          ∧ (rowScatterDims R C n wf).start (ix2 i c') idx 1 + (rowScatterDims R C n wf).window (ix2 i c') 1 < (C : Int)
        rw [hs1, hw1]; omega

/-- Element `(r, c)` of a row scatter-add at the ideal instance: the operand's element plus the updates of the rows
    numbered `r`. -/
theorem scatterAdd_rows_apply {R C n w : Nat}
    (wf : ScatterDims.WF ⟨2, ![R, C]⟩ ⟨2, ![n, 1]⟩ ⟨2, ![n, C]⟩ [1] [0] [0] 1)
    (x : (⟨2, ![R, C]⟩ : Shape).Idx → EReal) (idx : IVec ⟨2, ![n, 1]⟩ w)
    (upd : (⟨2, ![n, C]⟩ : Shape).Idx → EReal) (r : Fin R) (c : Fin C) :
    Ideal.hostScatterAdd (rowScatterDims R C n wf) x idx upd (ix2 r c)
      = x (ix2 r c) + ∑ i : Fin n, if (idx (ix2 i (0 : Fin 1))).toInt = (r.val : Int) then upd (ix2 i c) else 0 := by
  unfold Ideal.hostScatterAdd
  show _ + _ = _ + _
  congr 1
  rw [Finset.sum_filter, sum_idx2]
  refine Finset.sum_congr rfl fun i _ => ?_
  -- row by row: a row numbered `r` contributes its column-`c` element alone, any other row nothing
  by_cases hrow : (idx (ix2 i (0 : Fin 1))).toInt = (r.val : Int)
  · rw [if_pos hrow, Finset.sum_eq_single c]
    · rw [if_pos ((resultIdx_rows_iff wf idx i c r c).2 ⟨hrow, rfl⟩)]
    · intro c' _ hne
      rw [if_neg fun h => hne ((resultIdx_rows_iff wf idx i c' r c).1 h).2]
    · intro h; exact absurd (Finset.mem_univ c) h
  · rw [if_neg hrow]
    refine Finset.sum_eq_zero fun c' _ => ?_
    rw [if_neg fun h => hrow ((resultIdx_rows_iff wf idx i c' r c).1 h).1]

end Idealize.ShloMosaic.RowIndex

end
-- ==== Proof.LibAggregateColumn.lean ====
/-
  A general lemma. One column of a neighbourhood sum.

  Take an array `P : [N, C]`, a column of row numbers `src : [n, 1]` to gather by, a column of row numbers
  `dst : [n, 1]` to scatter by, a scaling array `sc : [n, C]`, a start array `z : [N, C]` and a bias `[N, C]`.
  The array  bias + scatter_add (z, dst, gather (P, src) · sc)  has at `(r, j)`
      z (r, j) + ∑ over the edges e numbered r by dst of P (row src picks for e, j) · sc (e, j) + bias (r, j):
  column `j` of the result reads column `j` of `z`, `P`, `sc` and `bias` and nothing else of them. So two such sums,
  over arrays of `C` and of `C'` columns with the same row numbers, agree at `(r, j)` and `(r, j')` as soon as those
  four arrays agree between column `j` and column `j'`. Exact values (extended reals); all sizes.
-/
import proofs.«149171_j44341242364729_1_alg».proof.Proof.LibRowIndex
import Idealize.ShloMosaic.PureOps.Ideal
import Idealize.ShloMosaic.Lib.ValueIdx

noncomputable section

namespace Idealize.ShloMosaic.AggregateColumn

open Idealize.ShloMosaic Idealize.ShloMosaic.ValueIdx Idealize.ShloMosaic.RowIndex

/-- The row of the operand a row gather reads for result row `e`: `e`'s number read signed and clamped into the rows. -/
def srcRow {N n : Nat} (hN : 0 < N) (src : IVec ⟨2, ![n, 1]⟩ 32) (e : Fin n) : Fin N :=
  ⟨min (src (ix2 e (0 : Fin 1))).toInt.toNat (N - 1), by omega⟩

/-- Element `(r, j)` of  bias + scatter_add (z, dst, gather (P, src) · sc). -/
theorem aggregate_apply {N C n : Nat} (hN : 0 < N)
    (wfG : GatherDims.WF ⟨2, ![N, C]⟩ ⟨2, ![n, 1]⟩ ⟨2, ![n, C]⟩ [1] [0] [] [0] [] 1 ![1, C])
    (wfS : ScatterDims.WF ⟨2, ![N, C]⟩ ⟨2, ![n, 1]⟩ ⟨2, ![n, C]⟩ [1] [0] [0] 1)
    (dG : GatherDims ⟨2, ![N, C]⟩ ⟨2, ![n, 1]⟩ ⟨2, ![n, C]⟩) (hdG : dG = rowGatherDims N C n wfG)
    (dS : ScatterDims ⟨2, ![N, C]⟩ ⟨2, ![n, 1]⟩ ⟨2, ![n, C]⟩) (hdS : dS = rowScatterDims N C n wfS)
    (z P : FVec Ideal ⟨2, ![N, C]⟩ .f32) (src dst : IVec ⟨2, ![n, 1]⟩ 32) (sc : FVec Ideal ⟨2, ![n, C]⟩ .f32)
    (bias : FVec Ideal ⟨2, ![N, C]⟩ .f32) (r : Fin N) (j : Fin C) :
    addf (Host.scatterAdd dS z dst (mulf (Host.gather dG P src) sc)) bias (ix2 r j)
      = (z (ix2 r j) + ∑ e : Fin n, if (dst (ix2 e (0 : Fin 1))).toInt = (r.val : Int)
            then P (ix2 (srcRow hN src e) j) * sc (ix2 e j) else 0) + bias (ix2 r j) := by
  subst hdG hdS
  rw [addf_apply]
  show Ideal.hostScatterAdd (rowScatterDims N C n wfS) z dst (mulf (Host.gather (rowGatherDims N C n wfG) P src) sc) (ix2 r j) + _ = _
  rw [scatterAdd_rows_apply]
  refine congrArg (· + bias (ix2 r j)) (congrArg (z (ix2 r j) + ·) (Finset.sum_congr rfl fun e _ => ?_))
  rw [mulf_apply, gather_rows_apply hN]
  rfl

/-- Two such sums with the same row numbers agree at `(r, j)` and `(r, j')` when the start arrays, the gathered arrays, the
    scalings and the biases agree between column `j` of the one and column `j'` of the other. -/
theorem aggregate_congr {N C C' n : Nat} (hN : 0 < N)
    (wfG : GatherDims.WF ⟨2, ![N, C]⟩ ⟨2, ![n, 1]⟩ ⟨2, ![n, C]⟩ [1] [0] [] [0] [] 1 ![1, C])
    (wfS : ScatterDims.WF ⟨2, ![N, C]⟩ ⟨2, ![n, 1]⟩ ⟨2, ![n, C]⟩ [1] [0] [0] 1)
    (dG : GatherDims ⟨2, ![N, C]⟩ ⟨2, ![n, 1]⟩ ⟨2, ![n, C]⟩) (hdG : dG = rowGatherDims N C n wfG)
    (dS : ScatterDims ⟨2, ![N, C]⟩ ⟨2, ![n, 1]⟩ ⟨2, ![n, C]⟩) (hdS : dS = rowScatterDims N C n wfS)
    (wfG' : GatherDims.WF ⟨2, ![N, C']⟩ ⟨2, ![n, 1]⟩ ⟨2, ![n, C']⟩ [1] [0] [] [0] [] 1 ![1, C'])
    (wfS' : ScatterDims.WF ⟨2, ![N, C']⟩ ⟨2, ![n, 1]⟩ ⟨2, ![n, C']⟩ [1] [0] [0] 1)
    (dG' : GatherDims ⟨2, ![N, C']⟩ ⟨2, ![n, 1]⟩ ⟨2, ![n, C']⟩) (hdG' : dG' = rowGatherDims N C' n wfG')
    (dS' : ScatterDims ⟨2, ![N, C']⟩ ⟨2, ![n, 1]⟩ ⟨2, ![n, C']⟩) (hdS' : dS' = rowScatterDims N C' n wfS')
    (z P : FVec Ideal ⟨2, ![N, C]⟩ .f32) (sc : FVec Ideal ⟨2, ![n, C]⟩ .f32) (bias : FVec Ideal ⟨2, ![N, C]⟩ .f32)
    (z' P' : FVec Ideal ⟨2, ![N, C']⟩ .f32) (sc' : FVec Ideal ⟨2, ![n, C']⟩ .f32) (bias' : FVec Ideal ⟨2, ![N, C']⟩ .f32)
    (src dst : IVec ⟨2, ![n, 1]⟩ 32) (r : Fin N) (j : Fin C) (j' : Fin C')
    (hz : z (ix2 r j) = z' (ix2 r j')) (hP : ∀ s : Fin N, P (ix2 s j) = P' (ix2 s j'))
    (hsc : ∀ e : Fin n, sc (ix2 e j) = sc' (ix2 e j')) (hb : bias (ix2 r j) = bias' (ix2 r j')) :
    addf (Host.scatterAdd dS z dst (mulf (Host.gather dG P src) sc)) bias (ix2 r j)
      = addf (Host.scatterAdd dS' z' dst (mulf (Host.gather dG' P' src) sc')) bias' (ix2 r j') := by
  rw [aggregate_apply hN wfG wfS dG hdG dS hdS, aggregate_apply hN wfG' wfS' dG' hdG' dS' hdS', hz, hb]
  refine congrArg (· + bias' (ix2 r j')) (congrArg (z' (ix2 r j') + ·) (Finset.sum_congr rfl fun e _ => ?_))
  rw [hP, hsc]

end Idealize.ShloMosaic.AggregateColumn

end
-- ==== Proof.Bridge.lean ====
/-
  The kernel's two results are the reference's two results.

  The kernel computes the second layer once over 128 columns, from the hidden layer times the two weight matrices joined
  by columns and the two biases joined end to end, and returns its left and right halves; the reference computes two
  layers of 64 columns each, one per weight matrix. Column `j` of a neighbourhood sum depends on column `j` of its inputs
  alone. Column `j < 64` of the joined product is column `j` of the hidden layer times the first matrix, column `64 + j`
  is column `j` of the hidden layer times the second, entry by entry the same finite sum; the joined bias reads the same
  way; the zero start and the edge weights do not depend on the column. The row numbers and the weights of the edges are
  the same stages of the edge list on both sides. So each half is the reference's layer, entry by entry, with no law of
  arithmetic used beyond reading the two sides at an index.
-/
import proofs.«149171_j44341242364729_1_alg».proof.Proof.StagesOutput
import proofs.«149171_j44341242364729_1_alg».proof.Proof.LibAggregateColumn
import Idealize.ShloMosaic.Lib.Pipeline.Value
import Idealize.ShloMosaic.Lib.ValueIdx

set_option maxRecDepth 16384

noncomputable section

namespace Cert.KernelIdeal.Bridge

open Cert.KernelIdeal Cert.KernelIdeal.Gen Cert.KernelIdeal.Stages
open Idealize.ShloMosaic Idealize.ShloMosaic.TcCoe Idealize.ShloMosaic.ValueIdx
open Cert.ReferenceIdeal.ReadP

/-! ## One column of the 128-column layer against one column of a 64-column layer -/

/-- Column `j'` of the kernel's second layer over the array `P2` and the bias `bc` is column `j` of a 64-column layer of
    the reference's form over `P'` and `b`, when column `j'` of `P2` is column `j` of `P'` and `bc` at `j'` is `b` at `j`. -/
theorem second_col (P2 : (⟨S100000x128, .f32⟩ : BufTy).Contents (Elt Ideal)) (x1 : (⟨S2x1600000, .i32⟩ : BufTy).Contents (Elt Ideal)) (bc : (⟨S128, .f32⟩ : BufTy).Contents (Elt Ideal))
    (P' : (⟨Cert.ReferenceIdeal.S100000x64, .f32⟩ : BufTy).Contents (Elt Ideal)) (b : (⟨Cert.ReferenceIdeal.S64, .f32⟩ : BufTy).Contents (Elt Ideal))
    (r : Fin 100000) (j' : Fin 128) (j : Fin 64)
    (hP : ∀ s : Fin 100000, P2 (ix2 s j') = P' (ix2 s j)) (hb : bc (ix1 j') = b (ix1 j)) :
    second (F := Ideal) P2 x1 bc (ix2 r j')
      = (addf (F := Ideal) (φ := .f32)
          (Host.scatterAdd (F := Ideal) (φ := .f32) Cert.ReferenceIdeal.scatter_S100000x64_S1700000x1_S1700000x64_1_0_0_1 (val_main_v62 (F := Ideal))
            (val_main_v63 (F := Ideal) x1)
            (mulf (F := Ideal) (φ := .f32) (Host.gather Cert.ReferenceIdeal.gather_S100000x64_S1700000x1_S1700000x64_1_0_n_n_0_1_164 P' (val_main_v57 (F := Ideal) x1))
              (val_main_v60 (F := Ideal) x1)))
          (val_main_v66 (F := Ideal) b) : FVec Ideal Cert.ReferenceIdeal.S100000x64 .f32) (ix2 r j) := by
  unfold second
  refine AggregateColumn.aggregate_congr (N := 100000) (C := 128) (C' := 64) (n := 1700000) (by decide)
    gather_S100000x128_S1700000x1_S1700000x128_1_0_n_n_0_1_1128_wf scatter_S100000x128_S1700000x1_S1700000x128_1_0_0_1_wf
    _ rfl _ rfl
    Cert.ReferenceIdeal.Gen.gather_S100000x64_S1700000x1_S1700000x64_1_0_n_n_0_1_164_wf Cert.ReferenceIdeal.Gen.scatter_S100000x64_S1700000x1_S1700000x64_1_0_0_1_wf
    _ rfl _ rfl _ _ _ _ _ _ _ _ _ _ r j' j ?_ hP ?_ ?_
  · -- the start arrays are zero everywhere
    rfl
  · -- the scaling: the edge's weight, whatever the column
    intro e
    rw [val_main_v60_apply]
    exact broadcastInDim_apply _ bcast_S1700000x1_S1700000x128_0_1 (val_main_v59 (F := Ideal) x1) (ix2 e j') (idx_main_v60 (ix2 e j))
      (fun a => match a with
        | ⟨0, _⟩ => by show e.val = if (1700000 : Nat) = 1 then 0 else e.val; rw [if_neg (by decide)]
        | ⟨1, _⟩ => by show 0 = if (1 : Nat) = 1 then 0 else j'.val; rw [if_pos rfl])
  · -- the bias: a row vector laid over every row
    rw [val_main_v66_apply, val_main_v65_apply]
    refine (broadcastInDim_apply _ bcast_S1x128_S100000x128_0_1 (broadcastInDim S1x128 ![1] bcast_S128_S1x128_1 bc) (ix2 r j') (ix2 (0 : Fin 1) j')
      (fun a => match a with
        | ⟨0, _⟩ => by show 0 = if (1 : Nat) = 1 then 0 else r.val; rw [if_pos rfl]
        | ⟨1, _⟩ => by show j'.val = if (128 : Nat) = 1 then 0 else j'.val; rw [if_neg (by decide)])).trans ?_
    refine (broadcastInDim_apply _ bcast_S128_S1x128_1 bc (ix2 (0 : Fin 1) j') (ix1 j')
      (fun a => match a with
        | ⟨0, _⟩ => by show j'.val = if (128 : Nat) = 1 then 0 else j'.val; rw [if_neg (by decide)])).trans ?_
    rw [hb]
    exact congrArg b (funext fun a => Fin.ext (by match a with | ⟨0, _⟩ => rfl))

/-! ## The two halves -/

variable (x0 : (⟨S100000x128, .f32⟩ : BufTy).Contents (Elt Ideal)) (x1 : (⟨S2x1600000, .i32⟩ : BufTy).Contents (Elt Ideal)) (x2 : (⟨S128x128, .f32⟩ : BufTy).Contents (Elt Ideal)) (x3 : (⟨S128, .f32⟩ : BufTy).Contents (Elt Ideal))
  (x4 : (⟨S128x64, .f32⟩ : BufTy).Contents (Elt Ideal)) (x5 : (⟨S64, .f32⟩ : BufTy).Contents (Elt Ideal)) (x6 : (⟨S128x64, .f32⟩ : BufTy).Contents (Elt Ideal)) (x7 : (⟨S64, .f32⟩ : BufTy).Contents (Elt Ideal))

/-- The joined biases as a function of the two arguments they are made of. -/
abbrev joinedBias (x5 x7 : (⟨S64, .f32⟩ : BufTy).Contents (Elt Ideal)) : (⟨S128, .f32⟩ : BufTy).Contents (Elt Ideal) :=
  concatenate S128 0 [⟨S64, x5⟩, ⟨S64, x7⟩] concatenates_S64_S64_S128_d0

/-- The left 64 columns are the reference's first result. -/
theorem left_eq :
    extractStridedSlice S100000x64 ![0, 0]
        (second (F := Ideal) (RegionProduct.rowsTimes (val_main_v50 (F := Ideal) x0 x1 x2 x3) (joinedWeights x4 x6)) x1 (joinedBias x5 x7))
        slices_S100000x128_S100000x64_0_0
      = val_main_v67 (F := Ideal) x0 x1 x2 x3 x4 x5 := by
  funext i
  obtain ⟨r, j, rfl⟩ : ∃ (r : Fin 100000) (j : Fin 64), i = ix2 r j := ⟨i 0, i 1, eq_ix2 i⟩
  have hj : j.val < 64 := j.isLt
  refine (extractStridedSlice_apply ![0, 0] _ slices_S100000x128_S100000x64_0_0 (ix2 r j) (ix2 r (⟨j.val, by omega⟩ : Fin 128))
    (fun a => match a with
      | ⟨0, _⟩ => by show r.val = 0 + r.val; omega
      | ⟨1, _⟩ => by show j.val = 0 + j.val; omega)).trans ?_
  refine (second_col _ x1 _ (val_main_v51 (F := Ideal) x0 x1 x2 x3 x4) x5 r ⟨j.val, by omega⟩ j ?_ ?_).trans ?_
  · intro s
    rw [RegionProduct.rowsTimes_apply, val_main_v51_apply]
    unfold RegionProduct.entry
    refine Finset.sum_congr rfl fun k _ => ?_
    have el : lidx_main_v51 (ix2 s j) k = ix2 s k :=
      funext fun a => Fin.ext (by match a with | ⟨0, _⟩ => rfl | ⟨1, _⟩ => rfl)
    have er : ridx_main_v51 (ix2 s j) k = ix2 k j :=
      funext fun a => Fin.ext (by match a with | ⟨0, _⟩ => rfl | ⟨1, _⟩ => rfl)
    rw [el, er]
    refine congrArg (val_main_v50 (F := Ideal) x0 x1 x2 x3 (ix2 s k) * ·) ?_
    exact concatenate_pair_apply_left (1 : Fin 2) x4 x6 concatenates_S128x64_S128x64_S128x128_d1 (ix2 k (⟨j.val, by omega⟩ : Fin 128)) rfl (ix2 k j)
      (fun b => by match b with | ⟨0, _⟩ => rfl | ⟨1, _⟩ => rfl)
  · exact concatenate_pair_apply_left (0 : Fin 1) x5 x7 concatenates_S64_S64_S128_d0 (ix1 (⟨j.val, by omega⟩ : Fin 128)) rfl (ix1 j)
      (fun b => by match b with | ⟨0, _⟩ => rfl)
  · rfl

/-- The right 64 columns are the reference's second result. -/
theorem right_eq :
    extractStridedSlice S100000x64 ![0, 64]
        (second (F := Ideal) (RegionProduct.rowsTimes (val_main_v50 (F := Ideal) x0 x1 x2 x3) (joinedWeights x4 x6)) x1 (joinedBias x5 x7))
        slices_S100000x128_S100000x64_0_64
      = val_main_v84 (F := Ideal) x0 x1 x2 x3 x6 x7 := by
  funext i
  obtain ⟨r, j, rfl⟩ : ∃ (r : Fin 100000) (j : Fin 64), i = ix2 r j := ⟨i 0, i 1, eq_ix2 i⟩
  have hj : j.val < 64 := j.isLt
  refine (extractStridedSlice_apply ![0, 64] _ slices_S100000x128_S100000x64_0_64 (ix2 r j) (ix2 r (⟨64 + j.val, by omega⟩ : Fin 128))
    (fun a => match a with
      | ⟨0, _⟩ => by show r.val = 0 + r.val; omega
      | ⟨1, _⟩ => by show 64 + j.val = 64 + j.val; rfl)).trans ?_
  refine (second_col _ x1 _ (val_main_v68 (F := Ideal) x0 x1 x2 x3 x6) x7 r ⟨64 + j.val, by omega⟩ j ?_ ?_).trans ?_
  · intro s
    rw [RegionProduct.rowsTimes_apply, val_main_v68_apply]
    unfold RegionProduct.entry
    refine Finset.sum_congr rfl fun k _ => ?_
    have el : lidx_main_v68 (ix2 s j) k = ix2 s k :=
      funext fun a => Fin.ext (by match a with | ⟨0, _⟩ => rfl | ⟨1, _⟩ => rfl)
    have er : ridx_main_v68 (ix2 s j) k = ix2 k j :=
      funext fun a => Fin.ext (by match a with | ⟨0, _⟩ => rfl | ⟨1, _⟩ => rfl)
    rw [el, er]
    refine congrArg (val_main_v50 (F := Ideal) x0 x1 x2 x3 (ix2 s k) * ·) ?_
    exact concatenate_pair_apply_right (1 : Fin 2) x4 x6 concatenates_S128x64_S128x64_S128x128_d1 (ix2 k (⟨64 + j.val, by omega⟩ : Fin 128)) rfl rfl (ix2 k j)
      (fun b hb => by match b with | ⟨0, _⟩ => rfl | ⟨1, _⟩ => exact absurd rfl hb)
      (by show j.val + 64 = 64 + j.val; omega)
  · exact concatenate_pair_apply_right (0 : Fin 1) x5 x7 concatenates_S64_S64_S128_d0 (ix1 (⟨64 + j.val, by omega⟩ : Fin 128)) rfl rfl (ix1 j)
      (fun b hb => by match b with | ⟨0, _⟩ => exact absurd rfl hb)
      (by show j.val + 64 = 64 + j.val; omega)
  · rfl

end Cert.KernelIdeal.Bridge

end
-- ==== Proof.lean ====
/-
  The certificate of a two-layer graph convolution whose dense products run in a row-tiled kernel.

  Both programs normalise the graph in the same way (self loops appended, the inverse square roots of the degrees of an
  edge's two ends multiplied into its weight) and apply two layers of "multiply the rows by a weight matrix, gather by
  source, scale by the edge weight, scatter-add by target, add a bias", the first followed by a clamp at zero. The
  kernel program does each dense product in a kernel region of 20 row blocks of 5000 rows, its operands narrowed to
  bf16, and does the second layer ONCE over the two weight matrices joined by columns, returning the two halves of the
  128 columns; the reference does two 64-column layers with the host's `dot_general`.

  Over the extended reals the narrowing is the identity and a block of the kernel's product is the restriction of the
  whole product, entry by entry the finite sum the host's `dot_general` is; so the first layer is literally the
  reference's. For the second, a column of a neighbourhood sum depends only on that column of its inputs, and a column of
  the joined product is a column of one of the two separate products. No finiteness of the inputs is used: the two sides
  are the same function of the arguments, index by index, by reading them, not by an algebraic law.

  The frames of the two kernel programs are the generated several-region frames; the reference's is its run with the
  results dropped; the idealisation rewrote nothing, so there is nothing to preserve.
-/
import proofs.«149171_j44341242364729_1_alg».proof.Defs
import proofs.«149171_j44341242364729_1_alg».proof.Proof.Gen.Kernel
import proofs.«149171_j44341242364729_1_alg».proof.Proof.Gen.Kernel.Frame
import proofs.«149171_j44341242364729_1_alg».proof.Proof.Gen.KernelIdeal
import proofs.«149171_j44341242364729_1_alg».proof.Proof.Gen.KernelIdeal.Frame
import proofs.«149171_j44341242364729_1_alg».proof.Proof.Gen.ReferenceIdeal
import proofs.«149171_j44341242364729_1_alg».proof.Proof.Gen.Pre_finite_inputs
import proofs.«149171_j44341242364729_1_alg».proof.Proof.RefRead
import proofs.«149171_j44341242364729_1_alg».proof.Proof.KernelResults
import proofs.«149171_j44341242364729_1_alg».proof.Proof.Bridge
import Idealize.ShloMosaic.Adequacy
import Idealize.ShloMosaic.Init

set_option maxRecDepth 16384

noncomputable section

namespace Cert.Proof

open Idealize.ShloMosaic Idealize.ShloMosaic.TcCoe Idealize.SL.Sem
open Cert.KernelIdeal.Gen Cert.KernelIdeal.Stages Cert.ReferenceIdeal.ReadP

/-! ## The kernel program's two results as the reference's stages of its own arguments -/

section KernelValue

variable (m : (ℓ : Loc Cert.KernelIdeal.nD Cert.KernelIdeal.τ Cert.KernelIdeal.sig) → Buf (Elt Ideal) ℓ)
  (ρ : Dev Cert.KernelIdeal.nD → PrngReg)

/-- The first returned array: the left half of the joined second layer is the reference's first second-layer result. -/
theorem kernel_left (c : Dev Cert.KernelIdeal.nD) :
    W9 m ρ c (Proc.devRef .tc Cert.KernelIdeal.main_v70)
      = val_main_v67 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) :=
  (W9_v70_of m ρ c _ (W8_v53 m ρ c)).trans (Cert.KernelIdeal.Bridge.left_eq _ _ _ _ _ _ _ _)

/-- The second returned array: the right half is the reference's second second-layer result. -/
theorem kernel_right (c : Dev Cert.KernelIdeal.nD) :
    W9 m ρ c (Proc.devRef .tc Cert.KernelIdeal.main_v71)
      = val_main_v84 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) :=
  (W9_v71_of m ρ c _ (W8_v53 m ρ c)).trans (Cert.KernelIdeal.Bridge.right_eq _ _ _ _ _ _ _ _)

end KernelValue

/-! ## The claims -/

theorem frame_k : Cert.frame_Kernel := fun m ρ _ => Cert.Kernel.Gen.frame m ρ

theorem frame_ki : Cert.frame_KernelIdeal := fun m ρ _ => Cert.KernelIdeal.Gen.frame m ρ

/-- The reference's frame is its run with the two results dropped. -/
theorem frame_ri : Cert.frame_ReferenceIdeal := fun m ρ _ =>
  (θ_run Cert.ReferenceIdeal.defs _ _).mono (fun _ h c => (h c).2.2) (Cert.ReferenceIdeal.ValueP.run (F := Ideal) m ρ)

/-- The idealisation rewrote no operation. -/
theorem preserves : Cert.preserves_Kernel_KernelIdeal := trivial

/-- Both programs end with the same two arrays: the reference's two second-layer stages of the arguments, which agree. -/
theorem algebraic : Cert.algebraic_KernelIdeal_ReferenceIdeal := by
  intro m ρ m' ρ' _ hagree
  refine ⟨fun c => val_main_v67 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)),
    fun c => val_main_v84 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), ?_, ?_⟩
  · exact (θ_run Cert.KernelIdeal.defs _ _).mono
      (fun r h c => ⟨(h c).1.trans (kernel_left m ρ c), (h c).2.1.trans (kernel_right m ρ c), (h c).2.2⟩)
      (Cert.KernelIdeal.Results.run_results (F := Ideal) m ρ)
  · refine (θ_run Cert.ReferenceIdeal.defs _ _).mono (fun r h c => ⟨(h c).1.trans ?_, (h c).2.1.trans ?_, (h c).2.2⟩)
      (Cert.ReferenceIdeal.ValueP.run (F := Ideal) m' ρ')
    · rw [val_main_v67_eq, (hagree c).1, (hagree c).2.1, (hagree c).2.2.1, (hagree c).2.2.2.1, (hagree c).2.2.2.2.1,
        (hagree c).2.2.2.2.2.1]
    · rw [val_main_v84_eq, (hagree c).1, (hagree c).2.1, (hagree c).2.2.1, (hagree c).2.2.2.1, (hagree c).2.2.2.2.2.2.1,
        (hagree c).2.2.2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
